-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S1x8192x32 : Shape := ⟨3, ![1, 8192, 32]⟩
abbrev S1x8192 : Shape := ⟨2, ![1, 8192]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S1x8192x32 : S_.BroadcastsInDim S1x8192x32 (![] : Fin 0 → Fin S1x8192x32.rank)
  reducesTo_S1x8192x32_S_d0_1_2 : S1x8192x32.ReducesTo [0, 1, 2] S_
  bcast_S_S1x8192 : S_.BroadcastsInDim S1x8192 (![] : Fin 0 → Fin S1x8192.rank)
  reducesTo_S1x8192_S_d0_1 : S1x8192.ReducesTo [0, 1] S_

variable [Facts]

def fn {F : FTy → Type} [FloatOps F] (main_arg0 : FVec F S4096x32 .f32) (main_arg1 : FVec F S1x8192x32 .f32) (main_arg2 : FVec F S1x8192 .f32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S1x8192x32 .f32 := Host.absf main_arg1
  let main_cst_0 : FVec F S_ .f32 := constant S_ .f32 0x7F800000#32
  let main_v5 : FVec F S1x8192x32 .f32 := broadcastInDim S1x8192x32 ![] bcast_S_S1x8192x32 main_cst_0
  let main_v6 : IVec S1x8192x32 1 := cmpf .olt main_v4 main_v5
  let main_c_1 : IVec S_ 1 := constantI S_ 1 1#1
  let main_v7 : IVec S_ 1 := (fun x v => Host.reduce IntOp.andi x v reducesTo_S1x8192x32_S_d0_1_2 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  main_v13
-- ==== Kernel.lean ====
abbrev S4096x32 : Shape := ⟨2, ![4096, 32]⟩
abbrev S1x8192x32 : Shape := ⟨3, ![1, 8192, 32]⟩
abbrev S1x8192 : Shape := ⟨2, ![1, 8192]⟩
abbrev S8192x32 : Shape := ⟨2, ![8192, 32]⟩
abbrev S4096 : Shape := ⟨1, ![4096]⟩
abbrev S256x32 : Shape := ⟨2, ![256, 32]⟩
abbrev S256 : Shape := ⟨1, ![256]⟩
abbrev S8192 : Shape := ⟨1, ![8192]⟩
abbrev S256x8192 : Shape := ⟨2, ![256, 8192]⟩
abbrev S256x1 : Shape := ⟨2, ![256, 1]⟩
abbrev S8192x1 : Shape := ⟨2, ![8192, 1]⟩
abbrev S8192x34 : Shape := ⟨2, ![8192, 34]⟩
abbrev S256x34 : Shape := ⟨2, ![256, 34]⟩

abbrev nBuf : Space → Nat
  | .hbm => 6
  | .vmem => 8
  | .smem => 0
  | _ => 0

abbrev bufTy : (tb : Table) → Fin (tcTables nBuf tb) → BufTy
  | .hbm, ⟨0, _⟩ => ⟨S4096x32, .f32⟩
  | .hbm, ⟨1, _⟩ => ⟨S1x8192x32, .f32⟩
  | .hbm, ⟨2, _⟩ => ⟨S1x8192, .f32⟩
  | .hbm, ⟨3, _⟩ => ⟨S8192x32, .f32⟩
  | .hbm, ⟨4, _⟩ => ⟨S4096x32, .f32⟩
  | .hbm, ⟨5, _⟩ => ⟨S4096, .f32⟩
  | .local _ .vmem, ⟨0, _⟩ => ⟨S256x32, .f32⟩
  | .local _ .vmem, ⟨1, _⟩ => ⟨S256x32, .f32⟩
  | .local _ .vmem, ⟨2, _⟩ => ⟨S8192x32, .f32⟩
  | .local _ .vmem, ⟨3, _⟩ => ⟨S1x8192, .f32⟩
  | .local _ .vmem, ⟨4, _⟩ => ⟨S256x32, .f32⟩
  | .local _ .vmem, ⟨5, _⟩ => ⟨S256x32, .f32⟩
  | .local _ .vmem, ⟨6, _⟩ => ⟨S256, .f32⟩
  | .local _ .vmem, ⟨7, _⟩ => ⟨S256, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x8192x32_S8192x32 : S1x8192x32.ShapeCasts S8192x32
  inb_S256x32_S256x32_0_0 : ∀ a, (![0, 0] : Fin 2 → Nat) a + S256x32.size a ≤ S256x32.size a
  h_S256x32 : 0 < S256x32.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  reduces_S8192x32_S8192 : S8192x32.Reduces [1] S8192
  inb_S1x8192_S1x8192_0_0 : ∀ a, (![0, 0] : Fin 2 → Nat) a + S1x8192.size a ≤ S1x8192.size a
  h_S1x8192 : 0 < S1x8192.numel
  shapeCasts_S1x8192_S8192 : S1x8192.ShapeCasts S8192
  shapeCasts_S8192_S1x8192 : S8192.ShapeCasts S1x8192
  broadcasts_S1x8192_S256x8192 : S1x8192.Broadcasts S256x8192
  reduces_S256x8192_S256 : S256x8192.Reduces [1] S256
  shapeCasts_S256_S256x1 : S256.ShapeCasts S256x1
  broadcasts_S256x1_S256x8192 : S256x1.Broadcasts S256x8192
  shapeCasts_S8192_S8192x1 : S8192.ShapeCasts S8192x1
  concatenates_S8192x32_S8192x1_S8192x1_S8192x34_d1 : Shape.Concatenates [S8192x32, S8192x1, S8192x1] S8192x34 1
  slices_S256x34_o0_0_S256x32 : S256x34.Slices ![0, 0] S256x32
  slices_S256x34_o0_32_S256x1 : S256x34.Slices ![0, 32] S256x1
  shapeCasts_S256x1_S256 : S256x1.ShapeCasts S256
  slices_S256x34_o0_33_S256x1 : S256x34.Slices ![0, 33] S256x1
  reduces_S256x32_S256 : S256x32.Reduces [1] S256
  broadcasts_S256x1_S256x32 : S256x1.Broadcasts S256x32
  inb_S256_S256_0 : ∀ a, (![0] : Fin 1 → Nat) a + S256.size a ≤ S256.size a
  h_S256 : 0 < S256.numel
  dot_S256x32_S8192x32_S256x8192_1_1_0_0_n_n_wf : DotDims.WF S256x32 S8192x32 S256x8192 [1] [1] [0] [0] [] []
  dot_S256x8192_S8192x34_S256x34_1_0_0_1_n_n_wf : DotDims.WF S256x8192 S8192x34 S256x34 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S4096x32.size a
  hwx0_0 : ∀ i : grid0.Coords, EltTy.bits .f32 = 32 ∨ (Rect.block (s := S4096x32) S256x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .f32 = 32 ∨ (Rect.block (s := S8192x32) S8192x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S4096x32.size a
  hwx0_3 : ∀ i : grid0.Coords, EltTy.bits .f32 = 32 ∨ (Rect.block (s := S4096x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S4096.size a
  hwx0_4 : ∀ i : grid0.Coords, EltTy.bits .f32 = 32 ∨ (Rect.block (s := S4096) S256.size (cc0_transform_4 i) (hinb0_4 i)).WholeWords (EltTy.packing .f32)

variable [Facts₀]

def dot_S256x32_S8192x32_S256x8192_1_1_0_0_n_n : DotDims S256x32 S8192x32 S256x8192 where
  lhsContracting := [1]
  rhsContracting := [1]
  lhsNonContracting := [0]
  rhsNonContracting := [0]
  lhsBatch := []
  rhsBatch := []
  wf := dot_S256x32_S8192x32_S256x8192_1_1_0_0_n_n_wf
def dot_S256x8192_S8192x34_S256x34_1_0_0_1_n_n : DotDims S256x8192 S8192x34 S256x34 where
  lhsContracting := [1]
  rhsContracting := [0]
  lhsNonContracting := [0]
  rhsNonContracting := [1]
  lhsBatch := []
  rhsBatch := []
  wf := dot_S256x8192_S8192x34_S256x34_1_0_0_1_n_n_wf

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S256x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x32 : Shape := ⟨2, ![4096, 32]⟩
abbrev S1x8192x32 : Shape := ⟨3, ![1, 8192, 32]⟩
abbrev S1x8192 : Shape := ⟨2, ![1, 8192]⟩
abbrev S8192x32 : Shape := ⟨2, ![8192, 32]⟩
abbrev S_ : Shape := ⟨0, ![]⟩
abbrev S4096 : Shape := ⟨1, ![4096]⟩
abbrev S4096x1 : Shape := ⟨2, ![4096, 1]⟩
abbrev S8192 : Shape := ⟨1, ![8192]⟩
abbrev S32x8192 : Shape := ⟨2, ![32, 8192]⟩
abbrev S4096x8192 : Shape := ⟨2, ![4096, 8192]⟩

abbrev nBuf : Space → Nat
  | .hbm => 45
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S1x8192x32, .f32⟩
  | .hbm, ⟨2, _⟩ => ⟨S1x8192, .f32⟩
  | .hbm, ⟨3, _⟩ => ⟨S8192x32, .f32⟩
  | .hbm, ⟨4, _⟩ => ⟨S4096x32, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S32x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x8192, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x8192, .f32⟩
  | .hbm, ⟨40, _⟩ => ⟨S4096x8192, .f32⟩
  | .hbm, ⟨41, _⟩ => ⟨S4096x8192, .f32⟩
  | .hbm, ⟨42, _⟩ => ⟨S_, .f32⟩
  | .hbm, ⟨43, _⟩ => ⟨S4096, .f32⟩
  | .hbm, ⟨44, _⟩ => ⟨S4096x32, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  shapeCasts_S1x8192x32_S8192x32 : S1x8192x32.ShapeCasts S8192x32
  reducesTo_S4096x32_S4096_d1 : S4096x32.ReducesTo [1] S4096
  h_S_ : 0 < S_.numel
  bcast_S4096_S4096x1_0 : S4096.BroadcastsInDim S4096x1 (![0] : Fin 1 → Fin S4096x1.rank)
  reducesTo_S8192x32_S8192_d1 : S8192x32.ReducesTo [1] S8192
  bcast_S8192_S1x8192_1 : S8192.BroadcastsInDim S1x8192 (![1] : Fin 1 → Fin S1x8192.rank)
  transposes_S8192x32_S32x8192_1_0 : S8192x32.Transposes [1, 0] S32x8192
  bcast_S_S4096x8192 : S_.BroadcastsInDim S4096x8192 (![] : Fin 0 → Fin S4096x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  reducesTo_S4096x8192_S4096_d1 : S4096x8192.ReducesTo [1] S4096
  bcast_S_S4096 : S_.BroadcastsInDim S4096 (![] : Fin 0 → Fin S4096.rank)
  dot_S4096x32_S32x8192_S4096x8192_1_0_0_1_n_n_wf : DotDims.WF S4096x32 S32x8192 S4096x8192 [1] [0] [0] [1] [] []
  dot_S4096x8192_S8192x32_S4096x32_1_0_0_1_n_n_wf : DotDims.WF S4096x8192 S8192x32 S4096x32 [1] [0] [0] [1] [] []

variable [Facts₀]

def dot_S4096x32_S32x8192_S4096x8192_1_0_0_1_n_n : DotDims S4096x32 S32x8192 S4096x8192 where
  lhsContracting := [1]
  rhsContracting := [0]
  lhsNonContracting := [0]
  rhsNonContracting := [1]
  lhsBatch := []
  rhsBatch := []
  wf := dot_S4096x32_S32x8192_S4096x8192_1_0_0_1_n_n_wf
def dot_S4096x8192_S8192x32_S4096x32_1_0_0_1_n_n : DotDims S4096x8192 S8192x32 S4096x32 where
  lhsContracting := [1]
  rhsContracting := [0]
  lhsNonContracting := [0]
  rhsNonContracting := [1]
  lhsBatch := []
  rhsBatch := []
  wf := dot_S4096x8192_S8192x32_S4096x32_1_0_0_1_n_n_wf

class Facts : Prop extends Facts₀ where

variable [Facts]
-- ==== Proof.SoftSelect.lean ====
/-
  The two row functions this certificate compares, on the extended reals, for one query row `x`
  against `K` candidates `y k` of dimension `D` with intercepts `b k`.

  Both are a softmax-weighted selection at temperature `T` of the candidates by the score
  `s k = -(|x|² - 2 x·y k + |y k|²) - b k = -|x - y k|² - b k`:
    choice d = Σ_k w k · y k d,    f = Σ_k w k · s k,    w = softmax (T · s).

  The ROW-SHIFTED form (`…K`) never forms the score: it uses the logits `t k = T · (2 x·y k - c k)` with
  `c k = |y k|² + b k`, which differ from `T · s k` by the row constant `T · |x|²`; softmax ignores a row
  constant, so the unnormalised weights `e k = exp (t k - max t)` are the same, and the three sums
  `Σ e·y`, `Σ e·c`, `Σ e` give `choice = (Σ e·y) / Σ e` and, since `Σ_k e k · (x·y k) = Σ_d x d · (Σ_k e k · y k d)`,
  `f = (2 · Σ_d (Σ e·y) d · x d - Σ e·c) / Σ e - |x|²`.
  The DIRECT form (`…R`) is the textbook one: scores, softmax with its own maximum, then the two weighted sums.

  Nothing is proved here: these are the terms the two programs' results are read as, index by index.
-/
import Idealize.ShloMosaic.PureOps.Ideal

noncomputable section

namespace Cert.SoftSelect

open Idealize.ShloMosaic

variable {K D : Type} [Fintype K] [Fintype D]

/-- The literal `2.0` both programs scale the inner product by. -/
def two : EReal := Ideal.ofBits .f32 0x40000000#32
/-- The temperature, the literal `50.0`. -/
def temp : EReal := Ideal.ofBits .f32 0x42480000#32

/-- `x · y k`. -/
def dot (x : D → EReal) (y : K → D → EReal) (k : K) : EReal := ∑ d, x d * y k d
/-- `|x|²`. -/
def sq (x : D → EReal) : EReal := ∑ d, x d * x d
/-- `c k = |y k|² + b k`. -/
def cand (y : K → D → EReal) (b : K → EReal) (k : K) : EReal := (∑ d, y k d * y k d) + b k

/-! ## The row-shifted form -/

/-- `t k = T · (2 · x·y k - c k)`. -/
def logitK (x : D → EReal) (y : K → D → EReal) (b : K → EReal) (k : K) : EReal :=
  temp * (two * dot x y k - cand y b k)
/-- The row's largest logit, folded from `-∞`. -/
def peakK (x : D → EReal) (y : K → D → EReal) (b : K → EReal) : EReal :=
  (Finset.univ : Finset K).fold max ⊥ (logitK x y b)
/-- `e k = exp (t k - max t)`. -/
def wgtK (x : D → EReal) (y : K → D → EReal) (b : K → EReal) (k : K) : EReal :=
  Ideal.exp (logitK x y b k - peakK x y b)
/-- `Σ_k e k · y k d`. -/
def numK (x : D → EReal) (y : K → D → EReal) (b : K → EReal) (d : D) : EReal := ∑ k, wgtK x y b k * y k d
/-- `Σ_k e k · c k`. -/
def numcK (x : D → EReal) (y : K → D → EReal) (b : K → EReal) : EReal := ∑ k, wgtK x y b k * cand y b k
/-- `Σ_k e k`. -/
def massK (x : D → EReal) (y : K → D → EReal) (b : K → EReal) : EReal := ∑ k, wgtK x y b k

def choiceK (x : D → EReal) (y : K → D → EReal) (b : K → EReal) (d : D) : EReal :=
  Ideal.div (numK x y b d) (massK x y b)
def fxK (x : D → EReal) (y : K → D → EReal) (b : K → EReal) : EReal :=
  Ideal.div (two * (∑ d, numK x y b d * x d) - numcK x y b) (massK x y b) - sq x

/-! ## The direct form -/

/-- `s k = -((|x|² - 2 · x·y k) + |y k|²) - b k`. -/
def scoreR (x : D → EReal) (y : K → D → EReal) (b : K → EReal) (k : K) : EReal :=
  -((sq x - two * dot x y k) + ∑ d, y k d * y k d) - b k
def logitR (x : D → EReal) (y : K → D → EReal) (b : K → EReal) (k : K) : EReal := temp * scoreR x y b k
/-- The row's largest logit, folded from `-∞` and then joined with `-∞` once more. -/
def peakR (x : D → EReal) (y : K → D → EReal) (b : K → EReal) : EReal :=
  max ⊥ ((Finset.univ : Finset K).fold max ⊥ (logitR x y b))
def expR (x : D → EReal) (y : K → D → EReal) (b : K → EReal) (k : K) : EReal :=
  Ideal.exp (logitR x y b k - peakR x y b)
def massR (x : D → EReal) (y : K → D → EReal) (b : K → EReal) : EReal := ∑ k, expR x y b k
/-- The softmax weight. -/
def wgtR (x : D → EReal) (y : K → D → EReal) (b : K → EReal) (k : K) : EReal :=
  Ideal.div (expR x y b k) (massR x y b)

def choiceR (x : D → EReal) (y : K → D → EReal) (b : K → EReal) (d : D) : EReal := ∑ k, wgtR x y b k * y k d
def fxR (x : D → EReal) (y : K → D → EReal) (b : K → EReal) : EReal := ∑ k, wgtR x y b k * scoreR x y b k

end Cert.SoftSelect

end
-- ==== Proof.Consts.lean ====
/-
  The float literals of the two programs as the extended reals their bit patterns denote: the scale 2 of the
  inner product, the temperature 50, the value -∞ both row maxima are folded from, and the +∞ the precondition
  compares every magnitude with. They are stated here and
  nowhere else, so that the patterns are opened in one place only. (Zero and one are the library's
  `Ideal.ofBits_zero_f32` and `Ideal.ofBits_one_f32`.)
-/
import proofs.«166965_g22308060135433_cont_8to1_1792_5_alg».proof.Proof.SoftSelect

noncomputable section

namespace Cert.SoftSelect

open Idealize.ShloMosaic

/-- The pattern `0x40000000` is the real number 2. -/
theorem two_eq : two = ((2 : ℝ) : EReal) := by
  unfold two
  simp [Ideal.ofBits, Ideal.ieee, -EReal.coe_mul]; norm_num

/-- The pattern `0x42480000` is the real number 50. -/
theorem temp_eq : temp = ((50 : ℝ) : EReal) := by
  unfold temp
  simp [Ideal.ofBits, Ideal.ieee, -EReal.coe_mul]; norm_num

/-- The pattern `0x7F800000` is +∞, the top of the extended reals: what the precondition compares magnitudes with. -/
theorem posInf_eq : Ideal.ofBits .f32 0x7F800000#32 = (⊤ : EReal) := by
  simp [Ideal.ofBits, Ideal.ieee]

/-- The pattern `0xFF800000` is -∞, the bottom of the extended reals. -/
theorem negInf_eq : Ideal.ofBits .f32 0xFF800000#32 = (⊥ : EReal) := by
  simp [Ideal.ofBits, Ideal.ieee]

end Cert.SoftSelect

end
-- ==== Proof.SoftSelectLaw.lean ====
/-
  The row-shifted and the direct form of the softmax-weighted selection agree on finite inputs.

  On inputs that are coercions of real numbers every stage of both forms is the coercion of a real
  number: finite sums, products, differences and negations of coercions are coercions; the two literals
  are the reals 2 and 50 (stated once, in the module of constants); the fold of max from -∞ over a
  nonempty family of coercions is the coercion of the family's real maximum; exp of a coercion is the
  coercion of the real exponential; and each mass is the coercion of a sum of exponentials, which is
  positive, so the division is a real division.

  In the reals the two logits differ by the row constant 50 · |x|², hence so do their maxima, and the
  unnormalised weights exp (logit - max) coincide, as do the masses. The two results are then the same
  weighted sums, rearranged: a sum over candidates of a sum over coordinates is the sum over coordinates
  of the sum over candidates, and (Σ e) / (Σ e) = 1.
-/
import proofs.«166965_g22308060135433_cont_8to1_1792_5_alg».proof.Proof.SoftSelect
import proofs.«166965_g22308060135433_cont_8to1_1792_5_alg».proof.Proof.Consts
import Mathlib.Data.EReal.Operations
import Mathlib.Data.Finset.Fold
import Mathlib.Data.Finset.Lattice.Fold
import Mathlib.Algebra.BigOperators.Group.Finset.Basic
import Mathlib.Algebra.BigOperators.Group.Finset.Sigma
import Mathlib.Algebra.BigOperators.Ring.Finset
import Mathlib.Algebra.Order.BigOperators.Group.Finset
import Mathlib.Analysis.Complex.Exponential
import Mathlib.Tactic.Ring
import Mathlib.Tactic.Linarith
import Mathlib.Tactic.LinearCombination

noncomputable section

namespace Cert.SoftSelect

open Idealize.ShloMosaic

/-! ## Coercions of finite sums and of folded maxima -/

/-- A finite sum of coercions is the coercion of the real sum. -/
theorem coe_sum {ι : Type} (s : Finset ι) (f : ι → ℝ) :
    (∑ i ∈ s, (f i : EReal)) = ((∑ i ∈ s, f i : ℝ) : EReal) := by
  induction s using Finset.cons_induction with
  | empty => simp
  | cons a s ha ih => rw [Finset.sum_cons, Finset.sum_cons, ih, EReal.coe_add]

/-- The coercion is monotone, so it commutes with max. -/
theorem coe_max (a b : ℝ) : max (a : EReal) (b : EReal) = ((max a b : ℝ) : EReal) :=
  (EReal.coe_strictMono.monotone.map_max).symm

/-- The fold of max from -∞ over a nonempty family of coercions is the coercion of the real maximum. -/
theorem fold_max_coe {ι : Type} {s : Finset ι} (hs : s.Nonempty) (f : ι → ℝ) :
    s.fold max ⊥ (fun i => (f i : EReal)) = ((s.sup' hs f : ℝ) : EReal) := by
  induction hs using Finset.Nonempty.cons_induction with
  | singleton a => rw [Finset.fold_singleton, Finset.sup'_singleton, max_bot_right]
  | cons a s ha hs ih => rw [Finset.fold_cons, ih, Finset.sup'_cons hs f, coe_max]

/-! ## The stages in the reals -/

section Stages

variable {K D : Type} [Fintype K] [Fintype D]

/-- The extended-real inputs x, y, b are the coercions of the real families xr, yr, br. -/
structure Reals (x : D → EReal) (y : K → D → EReal) (b : K → EReal)
    (xr : D → ℝ) (yr : K → D → ℝ) (br : K → ℝ) : Prop where
  hx : ∀ d, x d = (xr d : EReal)
  hy : ∀ k d, y k d = (yr k d : EReal)
  hb : ∀ k, b k = (br k : EReal)

section Defs

variable (xr : D → ℝ) (yr : K → D → ℝ) (br : K → ℝ)

/-- x · y k. -/
def rdot (k : K) : ℝ := ∑ d, xr d * yr k d
/-- |x|². -/
def rsq : ℝ := ∑ d, xr d * xr d
/-- |y k|². -/
def rnorm (k : K) : ℝ := ∑ d, yr k d * yr k d
/-- c k = |y k|² + b k. -/
def rcand (k : K) : ℝ := rnorm yr k + br k
/-- The row-shifted logit t k = 50 · (2 · x·y k - c k). -/
def rlogitK (k : K) : ℝ := 50 * (2 * rdot xr yr k - rcand yr br k)
/-- The score s k = -((|x|² - 2 · x·y k) + |y k|²) - b k. -/
def rscore (k : K) : ℝ := -((rsq xr - 2 * rdot xr yr k) + rnorm yr k) - br k
/-- The direct logit 50 · s k. -/
def rlogitR (k : K) : ℝ := 50 * rscore xr yr br k

variable [Nonempty K]

/-- The largest row-shifted logit. -/
def rpeakK : ℝ := Finset.univ.sup' Finset.univ_nonempty (rlogitK xr yr br)
/-- The largest direct logit. -/
def rpeakR : ℝ := Finset.univ.sup' Finset.univ_nonempty (rlogitR xr yr br)
/-- The unnormalised weight e k of the row-shifted form. -/
def rwgt (k : K) : ℝ := Real.exp (rlogitK xr yr br k - rpeakK xr yr br)
/-- The unnormalised weight of the direct form. -/
def rexpR (k : K) : ℝ := Real.exp (rlogitR xr yr br k - rpeakR xr yr br)
/-- Σ e. -/
def rmass : ℝ := ∑ k, rwgt xr yr br k
/-- The direct form's mass. -/
def rmassR : ℝ := ∑ k, rexpR xr yr br k
/-- Σ_k e k · y k d. -/
def rnum (d : D) : ℝ := ∑ k, rwgt xr yr br k * yr k d
/-- Σ_k e k · c k. -/
def rnumc : ℝ := ∑ k, rwgt xr yr br k * rcand yr br k

theorem rmass_pos : 0 < rmass xr yr br :=
  Finset.sum_pos (fun _ _ => Real.exp_pos _) Finset.univ_nonempty

theorem rmassR_pos : 0 < rmassR xr yr br :=
  Finset.sum_pos (fun _ _ => Real.exp_pos _) Finset.univ_nonempty

end Defs

/-! ## Each stage at coerced inputs is the coercion of the real stage -/

variable {x : D → EReal} {y : K → D → EReal} {b : K → EReal}
  {xr : D → ℝ} {yr : K → D → ℝ} {br : K → ℝ}

theorem dot_coe (h : Reals x y b xr yr br) (k : K) : dot x y k = (rdot xr yr k : EReal) := by
  unfold dot rdot
  simp only [h.hx, h.hy, ← EReal.coe_mul]
  exact coe_sum _ _

theorem sq_coe (h : Reals x y b xr yr br) : sq x = (rsq xr : EReal) := by
  unfold sq rsq
  simp only [h.hx, ← EReal.coe_mul]
  exact coe_sum _ _

theorem norm_coe (h : Reals x y b xr yr br) (k : K) :
    (∑ d, y k d * y k d) = (rnorm yr k : EReal) := by
  unfold rnorm
  simp only [h.hy, ← EReal.coe_mul]
  exact coe_sum _ _

theorem cand_coe (h : Reals x y b xr yr br) (k : K) : cand y b k = (rcand yr br k : EReal) := by
  unfold cand rcand
  rw [norm_coe h, h.hb, ← EReal.coe_add]

theorem logitK_coe (h : Reals x y b xr yr br) (k : K) :
    logitK x y b k = (rlogitK xr yr br k : EReal) := by
  unfold logitK rlogitK
  rw [temp_eq, two_eq, dot_coe h, cand_coe h, ← EReal.coe_mul, ← EReal.coe_sub, ← EReal.coe_mul]

theorem scoreR_coe (h : Reals x y b xr yr br) (k : K) :
    scoreR x y b k = (rscore xr yr br k : EReal) := by
  unfold scoreR rscore
  rw [sq_coe h, two_eq, dot_coe h, norm_coe h, h.hb, ← EReal.coe_mul, ← EReal.coe_sub,
    ← EReal.coe_add, ← EReal.coe_neg, ← EReal.coe_sub]

theorem logitR_coe (h : Reals x y b xr yr br) (k : K) :
    logitR x y b k = (rlogitR xr yr br k : EReal) := by
  unfold logitR rlogitR
  rw [temp_eq, scoreR_coe h, ← EReal.coe_mul]

variable [Nonempty K]

theorem peakK_coe (h : Reals x y b xr yr br) : peakK x y b = (rpeakK xr yr br : EReal) := by
  unfold peakK rpeakK
  rw [show logitK x y b = fun k => (rlogitK xr yr br k : EReal) from funext (logitK_coe h)]
  exact fold_max_coe _ _

theorem peakR_coe (h : Reals x y b xr yr br) : peakR x y b = (rpeakR xr yr br : EReal) := by
  unfold peakR rpeakR
  rw [show logitR x y b = fun k => (rlogitR xr yr br k : EReal) from funext (logitR_coe h),
    fold_max_coe Finset.univ_nonempty, max_bot_left]

theorem wgtK_coe (h : Reals x y b xr yr br) (k : K) :
    wgtK x y b k = (rwgt xr yr br k : EReal) := by
  unfold wgtK rwgt
  rw [logitK_coe h, peakK_coe h, ← EReal.coe_sub, Ideal.exp_coe]

theorem expR_coe (h : Reals x y b xr yr br) (k : K) :
    expR x y b k = (rexpR xr yr br k : EReal) := by
  unfold expR rexpR
  rw [logitR_coe h, peakR_coe h, ← EReal.coe_sub, Ideal.exp_coe]

theorem massK_coe (h : Reals x y b xr yr br) : massK x y b = (rmass xr yr br : EReal) := by
  unfold massK rmass
  simp only [wgtK_coe h]
  exact coe_sum _ _

theorem massR_coe (h : Reals x y b xr yr br) : massR x y b = (rmassR xr yr br : EReal) := by
  unfold massR rmassR
  simp only [expR_coe h]
  exact coe_sum _ _

theorem numK_coe (h : Reals x y b xr yr br) (d : D) :
    numK x y b d = (rnum xr yr br d : EReal) := by
  unfold numK rnum
  simp only [wgtK_coe h, h.hy, ← EReal.coe_mul]
  exact coe_sum _ _

theorem numcK_coe (h : Reals x y b xr yr br) : numcK x y b = (rnumc xr yr br : EReal) := by
  unfold numcK rnumc
  simp only [wgtK_coe h, cand_coe h, ← EReal.coe_mul]
  exact coe_sum _ _

theorem choiceK_coe (h : Reals x y b xr yr br) (d : D) :
    choiceK x y b d = ((rnum xr yr br d * (1 / rmass xr yr br) : ℝ) : EReal) := by
  unfold choiceK
  rw [numK_coe h, massK_coe h, Ideal.div_coe (rmass_pos xr yr br).ne', ← EReal.coe_mul]

theorem fxK_coe (h : Reals x y b xr yr br) :
    fxK x y b = (((2 * (∑ d, rnum xr yr br d * xr d) - rnumc xr yr br) * (1 / rmass xr yr br)
      - rsq xr : ℝ) : EReal) := by
  unfold fxK
  have hs : (∑ d, numK x y b d * x d) = ((∑ d, rnum xr yr br d * xr d : ℝ) : EReal) := by
    simp only [numK_coe h, h.hx, ← EReal.coe_mul]
    exact coe_sum _ _
  rw [hs, two_eq, numcK_coe h, massK_coe h, sq_coe h, ← EReal.coe_mul, ← EReal.coe_sub,
    Ideal.div_coe (rmass_pos xr yr br).ne', ← EReal.coe_mul, ← EReal.coe_sub]

theorem wgtR_coe (h : Reals x y b xr yr br) (k : K) :
    wgtR x y b k = ((rexpR xr yr br k * (1 / rmassR xr yr br) : ℝ) : EReal) := by
  unfold wgtR
  rw [expR_coe h, massR_coe h, Ideal.div_coe (rmassR_pos xr yr br).ne', ← EReal.coe_mul]

theorem choiceR_coe (h : Reals x y b xr yr br) (d : D) :
    choiceR x y b d
      = ((∑ k, rexpR xr yr br k * (1 / rmassR xr yr br) * yr k d : ℝ) : EReal) := by
  unfold choiceR
  simp only [wgtR_coe h, h.hy, ← EReal.coe_mul]
  exact coe_sum _ _

theorem fxR_coe (h : Reals x y b xr yr br) :
    fxR x y b
      = ((∑ k, rexpR xr yr br k * (1 / rmassR xr yr br) * rscore xr yr br k : ℝ) : EReal) := by
  unfold fxR
  simp only [wgtR_coe h, scoreR_coe h, ← EReal.coe_mul]
  exact coe_sum _ _

/-! ## The identities in the reals -/

section Identities

variable (xr : D → ℝ) (yr : K → D → ℝ) (br : K → ℝ)

/-- The two logits differ by the row constant 50 · |x|². -/
theorem rlogitR_eq (k : K) : rlogitR xr yr br k = rlogitK xr yr br k - 50 * rsq xr := by
  unfold rlogitR rlogitK rscore rcand
  ring

/-- So do the two maxima: each bounds the other's family after the shift. -/
theorem rpeakR_eq : rpeakR xr yr br = rpeakK xr yr br - 50 * rsq xr := by
  unfold rpeakR rpeakK
  apply le_antisymm
  · apply Finset.sup'_le
    intro k _
    rw [rlogitR_eq]
    exact sub_le_sub_right (Finset.le_sup' (rlogitK xr yr br) (Finset.mem_univ k)) _
  · rw [sub_le_iff_le_add]
    apply Finset.sup'_le
    intro k _
    have hk : rlogitR xr yr br k ≤ Finset.univ.sup' Finset.univ_nonempty (rlogitR xr yr br) :=
      Finset.le_sup' (rlogitR xr yr br) (Finset.mem_univ k)
    rw [rlogitR_eq] at hk
    linarith

/-- The unnormalised weights agree. -/
theorem rexpR_eq (k : K) : rexpR xr yr br k = rwgt xr yr br k := by
  unfold rexpR rwgt
  rw [rlogitR_eq, rpeakR_eq]
  congr 1
  ring

/-- The masses agree. -/
theorem rmassR_eq : rmassR xr yr br = rmass xr yr br := by
  unfold rmassR rmass
  simp only [rexpR_eq]

/-- (Σ_k e k · y k d) / S = Σ_k (e k / S) · y k d. -/
theorem rchoice_eq (d : D) :
    rnum xr yr br d * (1 / rmass xr yr br)
      = ∑ k, rexpR xr yr br k * (1 / rmassR xr yr br) * yr k d := by
  simp only [rexpR_eq, rmassR_eq]
  unfold rnum
  rw [Finset.sum_mul]
  exact Finset.sum_congr rfl (fun k _ => by ring)

/-- Σ_k e k · (x · y k) = Σ_d (Σ_k e k · y k d) · x d. -/
theorem rdot_sum : ∑ k, rwgt xr yr br k * rdot xr yr k = ∑ d, rnum xr yr br d * xr d := by
  unfold rdot rnum
  simp only [Finset.mul_sum, Finset.sum_mul]
  rw [Finset.sum_comm]
  exact Finset.sum_congr rfl (fun d _ => Finset.sum_congr rfl (fun k _ => by ring))

/-- (2 · Σ_d (Σ e·y) d · x d - Σ e·c) / S - |x|² = Σ_k (e k / S) · s k, since
    s k = (2 · x·y k - c k) - |x|² and S / S = 1. -/
theorem rfx_eq :
    (2 * (∑ d, rnum xr yr br d * xr d) - rnumc xr yr br) * (1 / rmass xr yr br) - rsq xr
      = ∑ k, rexpR xr yr br k * (1 / rmassR xr yr br) * rscore xr yr br k := by
  simp only [rexpR_eq, rmassR_eq]
  have ht : 1 / rmass xr yr br * rmass xr yr br = 1 :=
    one_div_mul_cancel (rmass_pos xr yr br).ne'
  have hk : ∀ k, rwgt xr yr br k * (1 / rmass xr yr br) * rscore xr yr br k
      = 1 / rmass xr yr br * (2 * (rwgt xr yr br k * rdot xr yr k)
          - rwgt xr yr br k * rcand yr br k - rsq xr * rwgt xr yr br k) := by
    intro k
    unfold rscore rcand
    ring
  simp only [hk]
  rw [← Finset.mul_sum, Finset.sum_sub_distrib, Finset.sum_sub_distrib, ← Finset.mul_sum,
    ← Finset.mul_sum, rdot_sum]
  show _ = 1 / rmass xr yr br * (2 * (∑ d, rnum xr yr br d * xr d) - rnumc xr yr br
    - rsq xr * rmass xr yr br)
  linear_combination (rsq xr) * ht

end Identities

end Stages

/-! ## The two forms agree on finite inputs -/

variable {K D : Type} [Fintype K] [Fintype D] [Nonempty K]

theorem choice_eq_of_finite (x : D → EReal) (y : K → D → EReal) (b : K → EReal)
    (hx : ∀ d, ∃ r : ℝ, x d = (r : EReal)) (hy : ∀ k d, ∃ r : ℝ, y k d = (r : EReal))
    (hb : ∀ k, ∃ r : ℝ, b k = (r : EReal)) (d : D) :
    choiceK x y b d = choiceR x y b d := by
  choose xr hxr using hx
  choose yr hyr using hy
  choose br hbr using hb
  have h : Reals x y b xr yr br := ⟨hxr, hyr, hbr⟩
  rw [choiceK_coe h, choiceR_coe h, rchoice_eq]

theorem fx_eq_of_finite (x : D → EReal) (y : K → D → EReal) (b : K → EReal)
    (hx : ∀ d, ∃ r : ℝ, x d = (r : EReal)) (hy : ∀ k d, ∃ r : ℝ, y k d = (r : EReal))
    (hb : ∀ k, ∃ r : ℝ, b k = (r : EReal)) :
    fxK x y b = fxR x y b := by
  choose xr hxr using hx
  choose yr hyr using hy
  choose br hbr using hb
  have h : Reals x y b xr yr br := ⟨hxr, hyr, hbr⟩
  rw [fxK_coe h, fxR_coe h, rfx_eq]

end Cert.SoftSelect

end
-- ==== Proof.Rows.lean ====
/-
  How the three argument arrays are read as one query row, the candidates and their intercepts:
  row `n` of the [4096, 32] query array; the [1, 8192, 32] candidate array with its leading unit axis dropped;
  the one row of the [1, 8192] intercept array.
-/
import proofs.«166965_g22308060135433_cont_8to1_1792_5_alg».proof.Proof.SoftSelect
import Idealize.ShloMosaic.Lib.ValueIdx

noncomputable section

namespace Cert.SoftSelect

open Idealize.ShloMosaic Idealize.ShloMosaic.ValueIdx

/-- Row `n` of the query array. -/
def rowOf (X : (⟨2, ![4096, 32]⟩ : Shape).Idx → EReal) (n : Fin 4096) : Fin 32 → EReal := fun d => X (ix2 n d)
/-- Candidate `k`, coordinate `d`. -/
def candOf (Y : (⟨3, ![1, 8192, 32]⟩ : Shape).Idx → EReal) : Fin 8192 → Fin 32 → EReal := fun k d => Y (ix3 0 k d)
/-- Candidate `k`'s intercept. -/
def icptOf (B : (⟨2, ![1, 8192]⟩ : Shape).Idx → EReal) : Fin 8192 → EReal := fun k => B (ix2 0 k)

end Cert.SoftSelect

end
-- ==== Proof.KernelRow.lean ====
/-
  What one row of the kernel's two stored blocks holds, on the extended reals.

  The body works on a block of 256 query rows against all 8192 candidates. It forms `c k = |y k|² + b k`, the logits
  `t = T · (2 · x·y - c)`, each row's largest logit, the weights `e = exp (t - max t)`, and then ONE product of `e` with the
  candidates extended by two columns, `c` and the constant one. Row r of that product therefore holds, side by side,
  `Σ_k e k · y k d` in the columns d < 32, `Σ_k e k · c k` in column 32 and `Σ_k e k` in column 33. The first stored block is
  the quotient of the first 32 columns by the last; the second is `(2 · Σ_d (Σ e·y) d · x d - Σ e·c) / Σ e - |x|²`.

  Every quantity of row r depends on the query block through row r alone: the two products and the reductions run over
  the candidates and the coordinates, never over the rows. So each is read here at explicit coordinates as the term of
  the same name in the row-shifted form (`logitK`, `peakK`, `wgtK`, `numK`, `numcK`, `massK`, `choiceK`, `fxK`) of row r.
-/
import proofs.«166965_g22308060135433_cont_8to1_1792_5_alg».proof.Proof.Gen.KernelIdeal.Value
import proofs.«166965_g22308060135433_cont_8to1_1792_5_alg».proof.Proof.Rows
import proofs.«166965_g22308060135433_cont_8to1_1792_5_alg».proof.Proof.Consts
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.SoftSelect

/-! ## The query block against the candidates: the first product's operand indices -/

theorem lhsXY_0 (i : S256x8192.Idx) (q : dot_S256x32_S8192x32_S256x8192_1_1_0_0_n_n.contr.Idx) :
    (dot_S256x32_S8192x32_S256x8192_1_1_0_0_n_n.lhsIdx i q 0).val = (i 0).val := by
  unfold DotDims.lhsIdx
  rw [dif_neg (show ¬(0 : Fin S256x32.rank) ∈ dot_S256x32_S8192x32_S256x8192_1_1_0_0_n_n.lhsBatch by decide), dif_pos (show (0 : Fin S256x32.rank) ∈ dot_S256x32_S8192x32_S256x8192_1_1_0_0_n_n.lhsNonContracting by decide)]
  rfl
theorem lhsXY_1 (i : S256x8192.Idx) (q : dot_S256x32_S8192x32_S256x8192_1_1_0_0_n_n.contr.Idx) :
    (dot_S256x32_S8192x32_S256x8192_1_1_0_0_n_n.lhsIdx i q 1).val = (q ⟨0, by decide⟩).val :=
  dot_S256x32_S8192x32_S256x8192_1_1_0_0_n_n.lhsIdx_val_of_single rfl i q
theorem rhsXY_0 (i : S256x8192.Idx) (q : dot_S256x32_S8192x32_S256x8192_1_1_0_0_n_n.contr.Idx) :
    (dot_S256x32_S8192x32_S256x8192_1_1_0_0_n_n.rhsIdx i q 0).val = (i 1).val := by
  unfold DotDims.rhsIdx
  rw [dif_neg (show ¬(0 : Fin S8192x32.rank) ∈ dot_S256x32_S8192x32_S256x8192_1_1_0_0_n_n.rhsBatch by decide), dif_pos (show (0 : Fin S8192x32.rank) ∈ dot_S256x32_S8192x32_S256x8192_1_1_0_0_n_n.rhsNonContracting by decide)]
  rfl
theorem rhsXY_1 (i : S256x8192.Idx) (q : dot_S256x32_S8192x32_S256x8192_1_1_0_0_n_n.contr.Idx) :
    (dot_S256x32_S8192x32_S256x8192_1_1_0_0_n_n.rhsIdx i q 1).val = (q ⟨0, by decide⟩).val :=
  dot_S256x32_S8192x32_S256x8192_1_1_0_0_n_n.rhsIdx_val_of_single rfl i q

/-- The product of a [256, 32] block with the [8192, 32] candidates over their last axes, into zero, at (r, k):
    the inner product of row r with candidate k. -/
theorem xy_apply (P0 : FVec Ideal S256x32 .f32) (P1 : FVec Ideal S8192x32 .f32) (r : Fin 256) (k : Fin 8192) :
    matmul dot_S256x32_S8192x32_S256x8192_1_1_0_0_n_n none P0 P1 (constant (F := Ideal) S256x8192 .f32 0x00000000#32) (ix2 r k)
      = ∑ q : Fin 32, P0 (ix2 r q) * P1 (ix2 k q) := by
  simp only [matmul]
  rw [Ideal.matmul_constant_zero_apply, ← Equiv.sum_comp (ValueIdx.contrEquiv1 dot_S256x32_S8192x32_S256x8192_1_1_0_0_n_n 32 rfl rfl).symm]
  refine Finset.sum_congr rfl fun q _ => ?_
  have hq := ValueIdx.contrEquiv1_symm_val dot_S256x32_S8192x32_S256x8192_1_1_0_0_n_n 32 rfl rfl q
  have el : dot_S256x32_S8192x32_S256x8192_1_1_0_0_n_n.lhsIdx (ix2 r k) ((ValueIdx.contrEquiv1 dot_S256x32_S8192x32_S256x8192_1_1_0_0_n_n 32 rfl rfl).symm q) = ix2 r q := funext fun a => Fin.ext (by
    match a with
    | ⟨0, _⟩ => exact lhsXY_0 _ _
    | ⟨1, _⟩ => exact (lhsXY_1 _ _).trans hq)
  have er : dot_S256x32_S8192x32_S256x8192_1_1_0_0_n_n.rhsIdx (ix2 r k) ((ValueIdx.contrEquiv1 dot_S256x32_S8192x32_S256x8192_1_1_0_0_n_n 32 rfl rfl).symm q) = ix2 k q := funext fun a => Fin.ext (by
    match a with
    | ⟨0, _⟩ => exact rhsXY_0 _ _
    | ⟨1, _⟩ => exact (rhsXY_1 _ _).trans hq)
  rw [el, er]

/-- The sum over the last axis of a [8192, 32] array, from zero, at k. -/
theorem rowsum_cand_apply (v : FVec Ideal S8192x32 .f32) (k : Fin 8192) :
    multiReduction (F := Ideal) .add [1] S8192 v 0x00000000#32 reduces_S8192x32_S8192 (.inl rfl) rfl (ix1 k) = ∑ d : Fin 32, v (ix2 k d) := by
  refine (Ideal.multiReduction_add_single v 0x00000000#32 reduces_S8192x32_S8192 (.inl rfl) rfl (ix1 k)).trans ?_
  refine Finset.sum_congr rfl fun d _ => congrArg v ?_
  funext a; apply Fin.ext
  match a with
  | ⟨0, _⟩ => rfl
  | ⟨1, _⟩ => rfl

/-- The sum over the last axis of a [256, 32] block, from zero, at r. -/
theorem rowsum_blk_apply (v : FVec Ideal S256x32 .f32) (r : Fin 256) :
    multiReduction (F := Ideal) .add [1] S256 v 0x00000000#32 reduces_S256x32_S256 (.inl rfl) rfl (ix1 r) = ∑ d : Fin 32, v (ix2 r d) := by
  refine (Ideal.multiReduction_add_single v 0x00000000#32 reduces_S256x32_S256 (.inl rfl) rfl (ix1 r)).trans ?_
  refine Finset.sum_congr rfl fun d _ => congrArg v ?_
  funext a; apply Fin.ext
  match a with
  | ⟨0, _⟩ => rfl
  | ⟨1, _⟩ => rfl

/-! ## The shared product `k0_pay2` as named stages

`k0_pay2` is the weights `e` times the candidates extended by two columns, `c` and ones. Its stages are named here
over the three loaded blocks as variables; the body's cast of the candidates to their own shape is the identity. -/

/-- `c k = |y k|² + b k` as the body forms it: a row sum of squares plus the intercept row cast to a vector. -/
def candVec (P1 : FVec Ideal S8192x32 .f32) (P2 : FVec Ideal S1x8192 .f32) : FVec Ideal S8192 .f32 :=
  addf (multiReduction .add [1] S8192 (mulf P1 P1) 0x00000000#32 reduces_S8192x32_S8192 (.inl rfl) rfl) (shapeCast S8192 P2 shapeCasts_S1x8192_S8192)

/-- The logits `T · (2 · x·y - c)` of a block of 256 rows. -/
def logitVec (P0 : FVec Ideal S256x32 .f32) (P1 : FVec Ideal S8192x32 .f32) (P2 : FVec Ideal S1x8192 .f32) : FVec Ideal S256x8192 .f32 :=
  mulf (broadcast S256x8192 (Scalar.ofBits .f32 0x42480000#32))
    (subf (mulf (broadcast S256x8192 (Scalar.ofBits .f32 0x40000000#32)) (matmul dot_S256x32_S8192x32_S256x8192_1_1_0_0_n_n none P0 P1 (constant S256x8192 .f32 0x00000000#32)))
      (broadcastTo S256x8192 (shapeCast S1x8192 (candVec P1 P2) shapeCasts_S8192_S1x8192) broadcasts_S1x8192_S256x8192))

/-- Each row's largest logit. -/
def peakVec (P0 : FVec Ideal S256x32 .f32) (P1 : FVec Ideal S8192x32 .f32) (P2 : FVec Ideal S1x8192 .f32) : FVec Ideal S256 .f32 :=
  multiReduction .maximumf [1] S256 (logitVec P0 P1 P2) 0xFF800000#32 reduces_S256x8192_S256 (.inl rfl) rfl

/-- The unnormalised weights `exp (t - max t)`. -/
def wgtVec (P0 : FVec Ideal S256x32 .f32) (P1 : FVec Ideal S8192x32 .f32) (P2 : FVec Ideal S1x8192 .f32) : FVec Ideal S256x8192 .f32 :=
  exp (subf (logitVec P0 P1 P2) (broadcastTo S256x8192 (shapeCast S256x1 (peakVec P0 P1 P2) shapeCasts_S256_S256x1) broadcasts_S256x1_S256x8192))

/-- The candidates with the two extra columns `c` and `1`. -/
def extVec (P1 : FVec Ideal S8192x32 .f32) (P2 : FVec Ideal S1x8192 .f32) : FVec Ideal S8192x34 .f32 :=
  concatenate S8192x34 1 [⟨S8192x32, P1⟩, ⟨S8192x1, shapeCast S8192x1 (candVec P1 P2) shapeCasts_S8192_S8192x1⟩, ⟨S8192x1, broadcast S8192x1 (Scalar.ofBits .f32 0x3F800000#32)⟩] concatenates_S8192x32_S8192x1_S8192x1_S8192x34_d1

theorem pay2_eq (P0 : FVec Ideal S256x32 .f32) (P1 : FVec Ideal S8192x32 .f32) (P2 : FVec Ideal S1x8192 .f32) :
    k0_pay2 P0 P1 P2 = matmul dot_S256x8192_S8192x34_S256x34_1_0_0_1_n_n none (wgtVec P0 P1 P2) (extVec P1 P2) (constant S256x34 .f32 0x00000000#32) := by
  unfold k0_pay2 wgtVec peakVec logitVec extVec candVec
  rw [shapeCast_self P1 shapeCasts_S8192x32_S8192x32]

/-- `c` at candidate k. -/
theorem candVec_apply (P1 : FVec Ideal S8192x32 .f32) (P2 : FVec Ideal S1x8192 .f32) (k : Fin 8192) :
    candVec P1 P2 (ix1 k) = cand (fun k d => P1 (ix2 k d)) (icptOf P2) k := by
  show multiReduction (F := Ideal) .add [1] S8192 (mulf P1 P1) 0x00000000#32 reduces_S8192x32_S8192 (.inl rfl) rfl (ix1 k)
      + shapeCast S8192 P2 shapeCasts_S1x8192_S8192 (ix1 k) = _
  rw [rowsum_cand_apply, shapeCast_1a_a_apply]
  rfl

/-- The logit at (r, k). -/
theorem logitVec_apply (P0 : FVec Ideal S256x32 .f32) (P1 : FVec Ideal S8192x32 .f32) (P2 : FVec Ideal S1x8192 .f32) (r : Fin 256) (k : Fin 8192) :
    logitVec P0 P1 P2 (ix2 r k) = logitK (fun d => P0 (ix2 r d)) (fun k d => P1 (ix2 k d)) (icptOf P2) k := by
  show Ideal.ofBits .f32 0x42480000#32 * (Ideal.ofBits .f32 0x40000000#32
        * matmul dot_S256x32_S8192x32_S256x8192_1_1_0_0_n_n none P0 P1 (constant (F := Ideal) S256x8192 .f32 0x00000000#32) (ix2 r k)
      - broadcastTo S256x8192 (shapeCast S1x8192 (candVec P1 P2) shapeCasts_S8192_S1x8192) broadcasts_S1x8192_S256x8192 (ix2 r k)) = _
  rw [xy_apply, broadcastTo_1b_ab_apply, shapeCast_a_1a_apply, candVec_apply]
  rfl

/-- The logit at the index a row's reduction visits at candidate k. -/
theorem logitVec_lift (P0 : FVec Ideal S256x32 .f32) (P1 : FVec Ideal S8192x32 .f32) (P2 : FVec Ideal S1x8192 .f32) (r : Fin 256) (k : Fin 8192) :
    logitVec P0 P1 P2 (reduces_S256x8192_S256.lift (ix1 r) k) = logitK (fun d => P0 (ix2 r d)) (fun k d => P1 (ix2 k d)) (icptOf P2) k := by
  have e : reduces_S256x8192_S256.lift (ix1 r) k = ix2 r k := by
    funext a; apply Fin.ext
    match a with
    | ⟨0, _⟩ => rfl
    | ⟨1, _⟩ => rfl
  rw [e, logitVec_apply]

/-- The largest logit of row r, folded from -∞. -/
theorem peakVec_apply (P0 : FVec Ideal S256x32 .f32) (P1 : FVec Ideal S8192x32 .f32) (P2 : FVec Ideal S1x8192 .f32) (r : Fin 256) :
    peakVec P0 P1 P2 (ix1 r) = peakK (fun d => P0 (ix2 r d)) (fun k d => P1 (ix2 k d)) (icptOf P2) := by
  refine (Ideal.multiReduction_maximumf_single (logitVec P0 P1 P2) 0xFF800000#32 reduces_S256x8192_S256 (.inl rfl) rfl (ix1 r)).trans ?_
  show (Finset.univ : Finset (Fin 8192)).fold max (Ideal.ofBits .f32 0xFF800000#32) (logitVec P0 P1 P2 ∘ reduces_S256x8192_S256.lift (ix1 r)) = _
  rw [negInf_eq]
  unfold peakK
  exact congrArg (fun f : Fin 8192 → EReal => (Finset.univ : Finset (Fin 8192)).fold max (⊥ : EReal) f)
    (funext fun k : Fin 8192 => logitVec_lift P0 P1 P2 r k)

/-- A vector of 256 made a column and broadcast along 8192 columns reads, at (r, k), the vector at r. -/
theorem column_wide_apply (v : FVec Ideal S256 .f32) (r : Fin 256) (k : Fin 8192) :
    broadcastTo S256x8192 (shapeCast S256x1 v shapeCasts_S256_S256x1) broadcasts_S256x1_S256x8192 (ix2 r k) = v (ix1 r) := by
  refine (broadcastTo_apply _ _ (ix2 r k) (ix2 r (0 : Fin 1)) (fun a => match a with
    | ⟨0, _⟩ => by show r.val = (if (256 : Nat) = 1 then 0 else r.val); rw [if_neg (by decide)]
    | ⟨1, _⟩ => by show 0 = (if (1 : Nat) = 1 then 0 else k.val); rw [if_pos rfl])).trans ?_
  exact shapeCast_apply _ _ (ix2 r (0 : Fin 1)) (ix1 r) (by rw [Shape.rowMajor_val_one, Shape.rowMajor_val_two]; show r.val = r.val * 1 + 0; omega)

/-- The same column broadcast along the 32 coordinates. -/
theorem column_narrow_apply (v : FVec Ideal S256 .f32) (r : Fin 256) (d : Fin 32) :
    broadcastTo S256x32 (shapeCast S256x1 v shapeCasts_S256_S256x1) broadcasts_S256x1_S256x32 (ix2 r d) = v (ix1 r) := by
  refine (broadcastTo_apply _ _ (ix2 r d) (ix2 r (0 : Fin 1)) (fun a => match a with
    | ⟨0, _⟩ => by show r.val = (if (256 : Nat) = 1 then 0 else r.val); rw [if_neg (by decide)]
    | ⟨1, _⟩ => by show 0 = (if (1 : Nat) = 1 then 0 else d.val); rw [if_pos rfl])).trans ?_
  exact shapeCast_apply _ _ (ix2 r (0 : Fin 1)) (ix1 r) (by rw [Shape.rowMajor_val_one, Shape.rowMajor_val_two]; show r.val = r.val * 1 + 0; omega)

/-- The unnormalised weight at (r, k). -/
theorem wgtVec_apply (P0 : FVec Ideal S256x32 .f32) (P1 : FVec Ideal S8192x32 .f32) (P2 : FVec Ideal S1x8192 .f32) (r : Fin 256) (k : Fin 8192) :
    wgtVec P0 P1 P2 (ix2 r k) = wgtK (fun d => P0 (ix2 r d)) (fun k d => P1 (ix2 k d)) (icptOf P2) k := by
  show Ideal.exp (logitVec P0 P1 P2 (ix2 r k)
      - broadcastTo S256x8192 (shapeCast S256x1 (peakVec P0 P1 P2) shapeCasts_S256_S256x1) broadcasts_S256x1_S256x8192 (ix2 r k)) = _
  rw [column_wide_apply, logitVec_apply, peakVec_apply]
  rfl

/-! ## The extended candidates, column by column -/

/-- A coordinate column d < 32 of the extended candidates is the candidates' own. -/
theorem extVec_apply_coord (P1 : FVec Ideal S8192x32 .f32) (P2 : FVec Ideal S1x8192 .f32) (k : Fin 8192) (d : Fin 32) :
    extVec P1 P2 (ix2 k (⟨d.val, by omega⟩ : Fin 34)) = P1 (ix2 k d) :=
  concatenate_apply_piece (1 : Fin S8192x34.rank) _ _ _ 0 (by show (0 : Nat) < 3; decide) S8192x32 P1 rfl rfl 0 rfl (ix2 k d)
    (fun b hb => match b with
      | ⟨0, _⟩ => rfl
      | ⟨1, _⟩ => absurd (Fin.ext rfl) hb)
    (by show 0 + d.val = d.val; omega)

/-- Column 32 is `c`. -/
theorem extVec_apply_cand (P1 : FVec Ideal S8192x32 .f32) (P2 : FVec Ideal S1x8192 .f32) (k : Fin 8192) :
    extVec P1 P2 (ix2 k (32 : Fin 34)) = candVec P1 P2 (ix1 k) := by
  refine (concatenate_apply_piece (1 : Fin S8192x34.rank) _ _ _ 1 (by show (1 : Nat) < 3; decide) S8192x1 _ rfl rfl 32 rfl (ix2 k (0 : Fin 1))
    (fun b hb => match b with
      | ⟨0, _⟩ => rfl
      | ⟨1, _⟩ => absurd (Fin.ext rfl) hb)
    (by show 32 + 0 = 32; omega)).trans ?_
  exact shapeCast_apply _ _ (ix2 k (0 : Fin 1)) (ix1 k) (by rw [Shape.rowMajor_val_one, Shape.rowMajor_val_two]; show k.val = k.val * 1 + 0; omega)

/-- Column 33 is the constant one. -/
theorem extVec_apply_one (P1 : FVec Ideal S8192x32 .f32) (P2 : FVec Ideal S1x8192 .f32) (k : Fin 8192) :
    extVec P1 P2 (ix2 k (33 : Fin 34)) = 1 := by
  refine (concatenate_apply_piece (1 : Fin S8192x34.rank) _ _ _ 2 (by show (2 : Nat) < 3; decide) S8192x1 _ rfl rfl 33 rfl (ix2 k (0 : Fin 1))
    (fun b hb => match b with
      | ⟨0, _⟩ => rfl
      | ⟨1, _⟩ => absurd (Fin.ext rfl) hb)
    (by show 33 + 0 = 33; omega)).trans ?_
  exact Ideal.ofBits_one_f32

/-! ## The weights against the extended candidates: the second product's operand indices -/

theorem lhsEY_0 (i : S256x34.Idx) (q : dot_S256x8192_S8192x34_S256x34_1_0_0_1_n_n.contr.Idx) :
    (dot_S256x8192_S8192x34_S256x34_1_0_0_1_n_n.lhsIdx i q 0).val = (i 0).val := by
  unfold DotDims.lhsIdx
  rw [dif_neg (show ¬(0 : Fin S256x8192.rank) ∈ dot_S256x8192_S8192x34_S256x34_1_0_0_1_n_n.lhsBatch by decide), dif_pos (show (0 : Fin S256x8192.rank) ∈ dot_S256x8192_S8192x34_S256x34_1_0_0_1_n_n.lhsNonContracting by decide)]
  rfl
theorem lhsEY_1 (i : S256x34.Idx) (q : dot_S256x8192_S8192x34_S256x34_1_0_0_1_n_n.contr.Idx) :
    (dot_S256x8192_S8192x34_S256x34_1_0_0_1_n_n.lhsIdx i q 1).val = (q ⟨0, by decide⟩).val :=
  dot_S256x8192_S8192x34_S256x34_1_0_0_1_n_n.lhsIdx_val_of_single rfl i q
theorem rhsEY_0 (i : S256x34.Idx) (q : dot_S256x8192_S8192x34_S256x34_1_0_0_1_n_n.contr.Idx) :
    (dot_S256x8192_S8192x34_S256x34_1_0_0_1_n_n.rhsIdx i q 0).val = (q ⟨0, by decide⟩).val :=
  dot_S256x8192_S8192x34_S256x34_1_0_0_1_n_n.rhsIdx_val_of_single rfl i q
theorem rhsEY_1 (i : S256x34.Idx) (q : dot_S256x8192_S8192x34_S256x34_1_0_0_1_n_n.contr.Idx) :
    (dot_S256x8192_S8192x34_S256x34_1_0_0_1_n_n.rhsIdx i q 1).val = (i 1).val := by
  unfold DotDims.rhsIdx
  rw [dif_neg (show ¬(1 : Fin S8192x34.rank) ∈ dot_S256x8192_S8192x34_S256x34_1_0_0_1_n_n.rhsBatch by decide), dif_pos (show (1 : Fin S8192x34.rank) ∈ dot_S256x8192_S8192x34_S256x34_1_0_0_1_n_n.rhsNonContracting by decide)]
  rfl

/-- The product of a [256, 8192] array with a [8192, 34] one, into zero, at (r, j): the sum over the candidates. -/
theorem ey_apply (E : FVec Ideal S256x8192 .f32) (Y : FVec Ideal S8192x34 .f32) (r : Fin 256) (j : Fin 34) :
    matmul dot_S256x8192_S8192x34_S256x34_1_0_0_1_n_n none E Y (constant (F := Ideal) S256x34 .f32 0x00000000#32) (ix2 r j)
      = ∑ k : Fin 8192, E (ix2 r k) * Y (ix2 k j) := by
  simp only [matmul]
  rw [Ideal.matmul_constant_zero_apply, ← Equiv.sum_comp (ValueIdx.contrEquiv1 dot_S256x8192_S8192x34_S256x34_1_0_0_1_n_n 8192 rfl rfl).symm]
  refine Finset.sum_congr rfl fun k _ => ?_
  have hk := ValueIdx.contrEquiv1_symm_val dot_S256x8192_S8192x34_S256x34_1_0_0_1_n_n 8192 rfl rfl k
  have el : dot_S256x8192_S8192x34_S256x34_1_0_0_1_n_n.lhsIdx (ix2 r j) ((ValueIdx.contrEquiv1 dot_S256x8192_S8192x34_S256x34_1_0_0_1_n_n 8192 rfl rfl).symm k) = ix2 r k := funext fun a => Fin.ext (by
    match a with
    | ⟨0, _⟩ => exact lhsEY_0 _ _
    | ⟨1, _⟩ => exact (lhsEY_1 _ _).trans hk)
  have er : dot_S256x8192_S8192x34_S256x34_1_0_0_1_n_n.rhsIdx (ix2 r j) ((ValueIdx.contrEquiv1 dot_S256x8192_S8192x34_S256x34_1_0_0_1_n_n 8192 rfl rfl).symm k) = ix2 k j := funext fun a => Fin.ext (by
    match a with
    | ⟨0, _⟩ => exact (rhsEY_0 _ _).trans hk
    | ⟨1, _⟩ => exact rhsEY_1 _ _)
  rw [el, er]

/-! ## What `k0_pay2` holds in row r: the three weighted sums -/

/-- Columns d < 32: `Σ_k e k · y k d`. -/
theorem pay2_num (P0 : FVec Ideal S256x32 .f32) (P1 : FVec Ideal S8192x32 .f32) (P2 : FVec Ideal S1x8192 .f32) (r : Fin 256) (d : Fin 32) :
    k0_pay2 (F := Ideal) P0 P1 P2 (ix2 r (⟨d.val, by omega⟩ : Fin 34)) = numK (fun d => P0 (ix2 r d)) (fun k d => P1 (ix2 k d)) (icptOf P2) d := by
  rw [pay2_eq, ey_apply]
  refine Finset.sum_congr rfl fun k _ => ?_
  rw [wgtVec_apply, extVec_apply_coord]

/-- Column 32: `Σ_k e k · c k`. -/
theorem pay2_numc (P0 : FVec Ideal S256x32 .f32) (P1 : FVec Ideal S8192x32 .f32) (P2 : FVec Ideal S1x8192 .f32) (r : Fin 256) :
    k0_pay2 (F := Ideal) P0 P1 P2 (ix2 r (32 : Fin 34)) = numcK (fun d => P0 (ix2 r d)) (fun k d => P1 (ix2 k d)) (icptOf P2) := by
  rw [pay2_eq, ey_apply]
  refine Finset.sum_congr rfl fun k _ => ?_
  rw [wgtVec_apply, extVec_apply_cand, candVec_apply]

/-- Column 33: `Σ_k e k`. -/
theorem pay2_mass (P0 : FVec Ideal S256x32 .f32) (P1 : FVec Ideal S8192x32 .f32) (P2 : FVec Ideal S1x8192 .f32) (r : Fin 256) :
    k0_pay2 (F := Ideal) P0 P1 P2 (ix2 r (33 : Fin 34)) = massK (fun d => P0 (ix2 r d)) (fun k d => P1 (ix2 k d)) (icptOf P2) := by
  rw [pay2_eq, ey_apply]
  refine Finset.sum_congr rfl fun k _ => ?_
  rw [wgtVec_apply, extVec_apply_one, mul_one]

/-! ## The two stored blocks, row by row -/

/-- The first 32 columns of a [256, 34] array, read at (r, d). -/
theorem head_cols_apply (G : FVec Ideal S256x34 .f32) (r : Fin 256) (d : Fin 32) :
    extractStridedSlice S256x32 ![0, 0] G slices_S256x34_o0_0_S256x32 (ix2 r d) = G (ix2 r (⟨d.val, by omega⟩ : Fin 34)) :=
  extractStridedSlice_apply ![0, 0] _ _ (ix2 r d) (ix2 r (⟨d.val, by omega⟩ : Fin 34)) (fun a => match a with
    | ⟨0, _⟩ => by show r.val = 0 + r.val; omega
    | ⟨1, _⟩ => by show d.val = 0 + d.val; omega)

/-- The block stored to the first result holds, at (r, d), the selection `(Σ e·y) d / Σ e` of row r. -/
theorem E3_apply (P0 : FVec Ideal S256x32 .f32) (P1 : FVec Ideal S8192x32 .f32) (P2 : FVec Ideal S1x8192 .f32) (r : Fin 256) (d : Fin 32) :
    Cert.KernelIdeal.Value.E3 (F := Ideal) P0 P1 P2 (ix2 r d) = choiceK (fun d => P0 (ix2 r d)) (fun k d => P1 (ix2 k d)) (icptOf P2) d := by
  have e0 : Cert.KernelIdeal.Value.ix3_0 (ix2 r d) = ix2 r (⟨d.val, by omega⟩ : Fin 34) := by
    funext a; apply Fin.ext
    match a with
    | ⟨0, _⟩ => rfl
    | ⟨1, _⟩ => rfl
  have e1 : Cert.KernelIdeal.Value.ix3_1 (ix2 r d) = ix2 r (33 : Fin 34) := by
    funext a; apply Fin.ext
    match a with
    | ⟨0, _⟩ => rfl
    | ⟨1, _⟩ => rfl
  show Ideal.div (k0_pay2 (F := Ideal) P0 P1 P2 (Cert.KernelIdeal.Value.ix3_0 (ix2 r d)))
      (k0_pay2 (F := Ideal) P0 P1 P2 (Cert.KernelIdeal.Value.ix3_1 (ix2 r d))) = _
  rw [e0, e1, pay2_num, pay2_mass]
  rfl

/-- The block stored to the second result holds, at r, `(2 · Σ_d (Σ e·y) d · x d - Σ e·c) / Σ e - |x|²` of row r. -/
theorem E4_apply (P0 : FVec Ideal S256x32 .f32) (P1 : FVec Ideal S8192x32 .f32) (P2 : FVec Ideal S1x8192 .f32) (r : Fin 256) :
    Cert.KernelIdeal.Value.E4 (F := Ideal) P0 P1 P2 (ix1 r) = fxK (fun d => P0 (ix2 r d)) (fun k d => P1 (ix2 k d)) (icptOf P2) := by
  have e0 : Cert.KernelIdeal.Value.ix4_0 (ix1 r) = ix1 r := by
    funext a; apply Fin.ext
    match a with
    | ⟨0, _⟩ => rfl
  have e1 : Cert.KernelIdeal.Value.ix4_1 (ix1 r) = ix2 r (32 : Fin 34) := by
    funext a; apply Fin.ext
    match a with
    | ⟨0, _⟩ => rfl
    | ⟨1, _⟩ => rfl
  have e2 : Cert.KernelIdeal.Value.ix4_2 (ix1 r) = ix2 r (33 : Fin 34) := by
    funext a; apply Fin.ext
    match a with
    | ⟨0, _⟩ => rfl
    | ⟨1, _⟩ => rfl
  have e3 : Cert.KernelIdeal.Value.ix4_3 (ix1 r) = ix1 r := by
    funext a; apply Fin.ext
    match a with
    | ⟨0, _⟩ => rfl
  have hs : (∑ d : Fin 32, (mulf (extractStridedSlice S256x32 ![0, 0] (k0_pay2 (F := Ideal) P0 P1 P2) slices_S256x34_o0_0_S256x32) P0) (ix2 r d))
      = ∑ d : Fin 32, numK (fun d => P0 (ix2 r d)) (fun k d => P1 (ix2 k d)) (icptOf P2) d * P0 (ix2 r d) :=
    Finset.sum_congr rfl fun d _ => by
      show extractStridedSlice S256x32 ![0, 0] (k0_pay2 (F := Ideal) P0 P1 P2) slices_S256x34_o0_0_S256x32 (ix2 r d) * P0 (ix2 r d) = _
      rw [head_cols_apply, pay2_num]
  show Ideal.div (Ideal.ofBits .f32 0x40000000#32
        * multiReduction (F := Ideal) .add [1] S256 (mulf (extractStridedSlice S256x32 ![0, 0] (k0_pay2 (F := Ideal) P0 P1 P2) slices_S256x34_o0_0_S256x32) P0) 0x00000000#32 reduces_S256x32_S256 (.inl rfl) rfl (Cert.KernelIdeal.Value.ix4_0 (ix1 r))
        - k0_pay2 (F := Ideal) P0 P1 P2 (Cert.KernelIdeal.Value.ix4_1 (ix1 r)))
      (k0_pay2 (F := Ideal) P0 P1 P2 (Cert.KernelIdeal.Value.ix4_2 (ix1 r)))
      - multiReduction (F := Ideal) .add [1] S256 (mulf P0 P0) 0x00000000#32 reduces_S256x32_S256 (.inl rfl) rfl (Cert.KernelIdeal.Value.ix4_3 (ix1 r)) = _
  rw [e0, e1, e2, e3, rowsum_blk_apply, rowsum_blk_apply, pay2_numc, pay2_mass, hs]
  rfl

end Cert.KernelIdeal.RowValue

end
-- ==== Proof.KernelArray.lean ====
/-
  From the kernel's blocks to its two result arrays.

  The grid has 16 points. Point `t` loads rows `256 t … 256 t + 255` of the queries and the whole of the candidates and
  of the intercepts, and writes back rows `256 t … 256 t + 255` of the first result and entries `256 t … 256 t + 255` of the
  second. A row of either stored block depends on the query block through that row alone, so what point `t` writes back
  is block `t` of ONE function of the whole arrays: row `n` of the queries against all candidates. Every row `n` lies in
  block `n / 256`, so the 16 blocks cover both result arrays, and after the run each holds that function.
  The candidates reach the region flattened by a reshape that drops their leading unit axis.
-/
import proofs.«166965_g22308060135433_cont_8to1_1792_5_alg».proof.Proof.KernelRow
import proofs.«166965_g22308060135433_cont_8to1_1792_5_alg».proof.Proof.Gen.KernelIdeal.Frame
import proofs.«166965_g22308060135433_cont_8to1_1792_5_alg».proof.Proof.Gen.KernelIdeal.Value
import proofs.«166965_g22308060135433_cont_8to1_1792_5_alg».proof.Proof.Rows
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.ArrValue

open Cert.KernelIdeal Cert.KernelIdeal.Gen Idealize.ShloMosaic Idealize.ShloMosaic.TcCoe Idealize.SL.Sem
open Idealize.ShloMosaic.ValueIdx Cert.SoftSelect
open Idealize.ShloMosaic.Pipeline (Dat)

variable (m : (ℓ : Loc nD τ sig) → Buf (Elt Ideal) ℓ) (ρ : Dev nD → PrngReg)

/-! ## The whole-array functions -/

/-- Entry `(n, d)` of the first result: row `n` of the queries against ALL candidates, coordinate `d`. -/
def choiceArr (X : S4096x32.Idx → EReal) (Y2 : S8192x32.Idx → EReal) (B : S1x8192.Idx → EReal) : S4096x32.Idx → EReal :=
  fun i => choiceK (rowOf X (i 0)) (fun k d => Y2 (ix2 k d)) (icptOf B) (i 1)

/-- Entry `n` of the second result: row `n` of the queries against ALL candidates. -/
def fxArr (X : S4096x32.Idx → EReal) (Y2 : S8192x32.Idx → EReal) (B : S1x8192.Idx → EReal) : S4096.Idx → EReal :=
  fun i => fxK (rowOf X (i 0)) (fun k d => Y2 (ix2 k d)) (icptOf B)

theorem choiceArr_apply (X : S4096x32.Idx → EReal) (Y2 : S8192x32.Idx → EReal) (B : S1x8192.Idx → EReal) (n : Fin 4096) (d : Fin 32) :
    choiceArr X Y2 B (ix2 n d) = choiceK (rowOf X n) (fun k d => Y2 (ix2 k d)) (icptOf B) d := rfl

theorem fxArr_apply (X : S4096x32.Idx → EReal) (Y2 : S8192x32.Idx → EReal) (B : S1x8192.Idx → EReal) (n : Fin 4096) :
    fxArr X Y2 B (ix1 n) = fxK (rowOf X n) (fun k d => Y2 (ix2 k d)) (icptOf B) := rfl

/-! ## The stored blocks, row by row, over arbitrary loaded blocks -/

theorem zero2 : (![0, 0] : Fin 2 → Nat) = fun _ => 0 := funext fun a => by fin_cases a <;> rfl
theorem zero1 : (![0] : Fin 1 → Nat) = fun _ => 0 := funext fun a => by fin_cases a; rfl

/-- The first stored block at `(r, d)`: the loads of whole blocks are the blocks. -/
theorem out3_apply (P0 : FVec Ideal S256x32 .f32) (P1 : FVec Ideal S8192x32 .f32) (P2 : FVec Ideal S1x8192 .f32) (r : Fin 256) (d : Fin 32) :
    out0_3 (F := Ideal) P0 P1 P2 (ix2 r d) = choiceK (fun d => P0 (ix2 r d)) (fun k d => P1 (ix2 k d)) (icptOf P2) d := by
  unfold out0_3
  refine (Value.canon3_eq (F := Ideal) _ _ _ (ix2 r d)).trans ?_
  rw [View.ld_unit_zero (S := S256x32) zero2, View.ld_unit_zero (S := S8192x32) zero2, View.ld_unit_zero (S := S1x8192) zero2]
  exact RowValue.E3_apply P0 P1 P2 r d

/-- The second stored block at `r`. -/
theorem out4_apply (P0 : FVec Ideal S256x32 .f32) (P1 : FVec Ideal S8192x32 .f32) (P2 : FVec Ideal S1x8192 .f32) (r : Fin 256) :
    out0_4 (F := Ideal) P0 P1 P2 (ix1 r) = fxK (fun d => P0 (ix2 r d)) (fun k d => P1 (ix2 k d)) (icptOf P2) := by
  unfold out0_4
  refine (Value.canon4_eq (F := Ideal) _ _ _ (ix1 r)).trans ?_
  rw [View.ld_unit_zero (S := S256x32) zero2, View.ld_unit_zero (S := S8192x32) zero2, View.ld_unit_zero (S := S1x8192) zero2]
  exact RowValue.E4_apply P0 P1 P2 r

/-! ## Where each window's block lies -/

/-- The index maps over the 16 points: the query window and both result windows are at row block `t`; the candidates'
    and the intercepts' windows never move. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 1) = t.val :=
  (by decide +kernel : ∀ t : Fin grid0.N, _)

theorem point_lt (t : Fin cfg0.N) : t.val < 16 := by
  have h : t.val < grid0.N := t.isLt
  rw [N_0] at h
  exact h

/-- The query block at point `t`, entry `(r, d)`, is the query array at row `256 t + r`. -/
theorem iblk0_apply (c : Dev nD) (t : Fin cfg0.N) (r : Fin 256) (d : Fin 32) (n : Fin 4096) (hn : n.val = t.val * 256 + r.val) :
    (iblk m c 0 t : S256x32.Idx → EReal) (ix2 r d) = (V m c main_arg0 : S4096x32.Idx → EReal) (ix2 n d) := by
  obtain ⟨e00, e01, -⟩ := index_facts t
  show (V m c main_arg0 : S4096x32.Idx → EReal) (((cfg0.win 0).blk t).view.emb (ix2 r d)) = _
  refine congrArg _ (funext fun a => Fin.ext ?_)
  match a with
  | ⟨0, _⟩ => show win0_0.index t (0 : Fin 2) * 256 + 1 * r.val = n.val; omega
  | ⟨1, _⟩ => show win0_0.index t (1 : Fin 2) * 32 + 1 * d.val = d.val; omega

/-- The candidates' block at any point is the whole flattened array. -/
theorem iblk1_apply (c : Dev nD) (t : Fin cfg0.N) (k : Fin 8192) (d : Fin 32) :
    (iblk m c 1 t : S8192x32.Idx → EReal) (ix2 k d) = (V m c main_v0 : S8192x32.Idx → EReal) (ix2 k d) := by
  obtain ⟨-, -, e10, e11, -⟩ := index_facts t
  show (V m c main_v0 : S8192x32.Idx → EReal) (((cfg0.win 1).blk t).view.emb (ix2 k d)) = _
  refine congrArg _ (funext fun a => Fin.ext ?_)
  match a with
  | ⟨0, _⟩ => show win0_1.index t (0 : Fin 2) * 8192 + 1 * k.val = k.val; omega
  | ⟨1, _⟩ => show win0_1.index t (1 : Fin 2) * 32 + 1 * d.val = d.val; omega

/-- The intercepts' block at any point is the whole array. -/
theorem iblk2_apply (c : Dev nD) (t : Fin cfg0.N) (u : Fin 1) (k : Fin 8192) :
    (iblk m c 2 t : S1x8192.Idx → EReal) (ix2 u k) = (V m c main_arg2 : S1x8192.Idx → EReal) (ix2 u k) := by
  obtain ⟨-, -, -, -, e20, e21, -⟩ := index_facts t
  show (V m c main_arg2 : S1x8192.Idx → EReal) (((cfg0.win 2).blk t).view.emb (ix2 u k)) = _
  refine congrArg _ (funext fun a => Fin.ext ?_)
  match a with
  | ⟨0, _⟩ => show win0_2.index t (0 : Fin 2) * 1 + 1 * u.val = u.val; omega
  | ⟨1, _⟩ => show win0_2.index t (1 : Fin 2) * 8192 + 1 * k.val = k.val; omega

/-- A result block's index `(r, d)` at point `t` lies at row `256 t + r` of the first result array. -/
theorem emb3_apply (t : Fin cfg0.N) (r : Fin 256) (d : Fin 32) (n : Fin 4096) (hn : n.val = t.val * 256 + r.val) :
    (((cfg0.win 3).blk t).view.emb (ix2 r d) : S4096x32.Idx) = ix2 n d := by
  obtain ⟨-, -, -, -, -, -, e30, e31, -⟩ := index_facts t
  refine funext fun a => Fin.ext ?_
  match a with
  | ⟨0, _⟩ => show win0_3.index t (0 : Fin 2) * 256 + 1 * r.val = n.val; omega
  | ⟨1, _⟩ => show win0_3.index t (1 : Fin 2) * 32 + 1 * d.val = d.val; omega

/-- A result block's index `r` at point `t` lies at entry `256 t + r` of the second result array. -/
theorem emb4_apply (t : Fin cfg0.N) (r : Fin 256) (n : Fin 4096) (hn : n.val = t.val * 256 + r.val) :
    (((cfg0.win 4).blk t).view.emb (ix1 r) : S4096.Idx) = ix1 n := by
  obtain ⟨-, -, -, -, -, -, -, -, e40⟩ := index_facts t
  refine funext fun a => Fin.ext ?_
  match a with
  | ⟨0, _⟩ => show win0_4.index t (0 : Fin 1) * 256 + 1 * r.val = n.val; omega

/-! ## What each point writes back -/

/-- WHAT POINT `t` WRITES BACK to the first result is block `t` of `choiceArr` of the arrays as the region finds them. -/
theorem flushed3_eq (c : Dev nD) (t : Fin cfg0.N) :
    (dats m 0 c).flushed 3 t = ((cfg0.win 3).blk t).view.read (Elt Ideal) (choiceArr (V m c main_arg0) (V m c main_v0) (V m c main_arg2)) := by
  rw [Value.flushed3]
  funext j
  obtain ⟨r, d, rfl⟩ : ∃ (r : Fin 256) (d : Fin 32), j = ix2 r d := ⟨j 0, j 1, eq_ix2 j⟩
  have ht := point_lt t
  have hn : t.val * 256 + r.val < 4096 := by have := r.isLt; omega
  show out0_3 (F := Ideal) (iblk m c 0 t) (iblk m c 1 t) (iblk m c 2 t) (ix2 r d)
    = choiceArr (V m c main_arg0) (V m c main_v0) (V m c main_arg2) (((cfg0.win 3).blk t).view.emb (ix2 r d))
  rw [emb3_apply t r d ⟨t.val * 256 + r.val, hn⟩ rfl, choiceArr_apply]
  refine (out3_apply (iblk m c 0 t) (iblk m c 1 t) (iblk m c 2 t) r d).trans ?_
  have h0 : (fun d' : Fin 32 => (iblk m c 0 t : S256x32.Idx → EReal) (ix2 r d')) = rowOf (V m c main_arg0) ⟨t.val * 256 + r.val, hn⟩ :=
    funext fun d' => iblk0_apply m c t r d' ⟨t.val * 256 + r.val, hn⟩ rfl
  have h1 : (fun (k : Fin 8192) (d' : Fin 32) => (iblk m c 1 t : S8192x32.Idx → EReal) (ix2 k d')) = fun k d' => (V m c main_v0 : S8192x32.Idx → EReal) (ix2 k d') :=
    funext fun k => funext fun d' => iblk1_apply m c t k d'
  have h2 : icptOf (iblk m c 2 t) = icptOf (V m c main_arg2) := funext fun k => iblk2_apply m c t 0 k
  rw [h0, h1, h2]

/-- WHAT POINT `t` WRITES BACK to the second result is block `t` of `fxArr` of the arrays as the region finds them. -/
theorem flushed4_eq (c : Dev nD) (t : Fin cfg0.N) :
    (dats m 0 c).flushed 4 t = ((cfg0.win 4).blk t).view.read (Elt Ideal) (fxArr (V m c main_arg0) (V m c main_v0) (V m c main_arg2)) := by
  rw [Value.flushed4]
  funext j
  obtain ⟨r, rfl⟩ : ∃ r : Fin 256, j = ix1 r := ⟨j 0, eq_ix1 j⟩
  have ht := point_lt t
  have hn : t.val * 256 + r.val < 4096 := by have := r.isLt; omega
  show out0_4 (F := Ideal) (iblk m c 0 t) (iblk m c 1 t) (iblk m c 2 t) (ix1 r)
    = fxArr (V m c main_arg0) (V m c main_v0) (V m c main_arg2) (((cfg0.win 4).blk t).view.emb (ix1 r))
  rw [emb4_apply t r ⟨t.val * 256 + r.val, hn⟩ rfl, fxArr_apply]
  refine (out4_apply (iblk m c 0 t) (iblk m c 1 t) (iblk m c 2 t) r).trans ?_
  have h0 : (fun d' : Fin 32 => (iblk m c 0 t : S256x32.Idx → EReal) (ix2 r d')) = rowOf (V m c main_arg0) ⟨t.val * 256 + r.val, hn⟩ :=
    funext fun d' => iblk0_apply m c t r d' ⟨t.val * 256 + r.val, hn⟩ rfl
  have h1 : (fun (k : Fin 8192) (d' : Fin 32) => (iblk m c 1 t : S8192x32.Idx → EReal) (ix2 k d')) = fun k d' => (V m c main_v0 : S8192x32.Idx → EReal) (ix2 k d') :=
    funext fun k => funext fun d' => iblk1_apply m c t k d'
  have h2 : icptOf (iblk m c 2 t) = icptOf (V m c main_arg2) := funext fun k => iblk2_apply m c t 0 k
  rw [h0, h1, h2]

/-! ## The blocks cover the arrays -/

/-- An index of the first result array is in point `t`'s block iff each coordinate is in the block's range on its axis. -/
theorem mem_blk3 (t : Fin cfg0.N) (i : S4096x32.Idx) :
    i ∈ ((cfg0.win 3).blk t).view.set ↔ ∀ a : Fin 2, win0_3.index t a * S256x32.size a ≤ (i a).val ∧ (i a).val < win0_3.index t a * S256x32.size a + S256x32.size a := by
  show i ∈ ((View.whole main_v1_0).slice (win0_3.rect t)).set ↔ _
  rw [View.set_slice_whole, Rect.mem_set_unit]
  exact Iff.rfl

/-- An index of the second result array is in point `t`'s block iff its coordinate is in the block's range. -/
theorem mem_blk4 (t : Fin cfg0.N) (i : S4096.Idx) :
    i ∈ ((cfg0.win 4).blk t).view.set ↔ ∀ a : Fin 1, win0_4.index t a * S256.size a ≤ (i a).val ∧ (i a).val < win0_4.index t a * S256.size a + S256.size a := by
  show i ∈ ((View.whole main_v1_1).slice (win0_4.rect t)).set ↔ _
  rw [View.set_slice_whole, Rect.mem_set_unit]
  exact Iff.rfl

/-- Row `n` lies in block `n / 256`. -/
theorem cover3 (i : S4096x32.Idx) : ∃ t : Fin cfg0.N, (cfg0.win 3).flush t = true ∧ i ∈ ((cfg0.win 3).blk t).view.set := by
  have hi0 : (i 0).val < 4096 := (i 0).isLt
  have hi1 : (i 1).val < 32 := (i 1).isLt
  have hN : grid0.N = 16 := N_0
  let t : Fin cfg0.N := ⟨(i 0).val / 256, by show (i 0).val / 256 < grid0.N; omega⟩
  have htv : t.val = (i 0).val / 256 := rfl
  obtain ⟨-, -, -, -, -, -, e30, e31, -⟩ := index_facts t
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 32 ≤ (i 1).val ∧ (i 1).val < win0_3.index t (1 : Fin 2) * 32 + 32; omega

/-- Entry `n` lies in block `n / 256`. -/
theorem cover4 (i : S4096.Idx) : ∃ t : Fin cfg0.N, (cfg0.win 4).flush t = true ∧ i ∈ ((cfg0.win 4).blk t).view.set := by
  have hi0 : (i 0).val < 4096 := (i 0).isLt
  have hN : grid0.N = 16 := N_0
  let t : Fin cfg0.N := ⟨(i 0).val / 256, by show (i 0).val / 256 < grid0.N; omega⟩
  have htv : t.val = (i 0).val / 256 := rfl
  obtain ⟨-, -, -, -, -, -, -, -, e40⟩ := index_facts t
  refine ⟨t, flush0_4 t, ?_⟩
  rw [mem_blk4]
  intro a
  match a with
  | ⟨0, _⟩ => show win0_4.index t (0 : Fin 1) * 256 ≤ (i 0).val ∧ (i 0).val < win0_4.index t (0 : Fin 1) * 256 + 256; omega

/-! ## The arrays after the run -/

/-- The first result array after the run. -/
theorem final3 (c : Dev nD) : (dats m 0 c).arrAt 3 cfg0.N = choiceArr (V m c main_arg0) (V m c main_v0) (V m c main_arg2) :=
  (dats m 0 c).arrAt_eq_of_cover 3 (choiceArr (V m c main_arg0) (V m c main_v0) (V m c main_arg2)) (fun t _ => flushed3_eq m c t) cover3

/-- The second result array after the run. -/
theorem final4 (c : Dev nD) : (dats m 0 c).arrAt 4 cfg0.N = fxArr (V m c main_arg0) (V m c main_v0) (V m c main_arg2) :=
  (dats m 0 c).arrAt_eq_of_cover 4 (fxArr (V m c main_arg0) (V m c main_v0) (V m c main_arg2)) (fun t _ => flushed4_eq m c t) cover4

/-! ## The flattened candidates -/

/-- The host reshape before the region: candidate `k`, coordinate `d` of the flattened array. -/
theorem V_main_v0_apply (c : Dev nD) (k : Fin 8192) (d : Fin 32) :
    V m c main_v0 (ix2 k d) = candOf (m ((c : Thread nD τ).loc main_arg1)) k d := by
  have e : (V m c main_v0 : S8192x32.Idx → EReal)
      = shapeCast S8192x32 (m ((c : Thread nD τ).loc main_arg1) : S1x8192x32.Idx → EReal) shapeCasts_S1x8192x32_S8192x32 := by
    dsimp only [Gen.V, Gen.hostOps0]; after_results; rfl
  rw [e]
  exact shapeCast_1ab_ab_apply _ _ k d

/-! ## The run, read -/

/-- The frame run re-posted: each result array at its function of the arrays, the arguments unchanged. -/
theorem run : θ_run defs (onTc (τ := τ) (main (F := Ideal))) ⟨m, fun _ => 0, ρ⟩ fun r => ∀ c : Dev nD,
      r.2.mem ((c : Thread nD τ).loc main_v1_0) = choiceArr (m ((c : Thread nD τ).loc main_arg0)) (V m c main_v0) (m ((c : Thread nD τ).loc main_arg2))
      ∧ r.2.mem ((c : Thread nD τ).loc main_v1_1) = fxArr (m ((c : Thread nD τ).loc main_arg0)) (V m c main_v0) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final3 m c).trans (by rw [V_main_arg0, V_main_arg2])),
      (h c).2.1.trans ((final4 m c).trans (by rw [V_main_arg0, V_main_arg2])),
      (h c).2.2⟩)
    (Value.run_blocks m ρ)

end Cert.KernelIdeal.ArrValue

end
-- ==== Proof.RefRead.lean ====
/-
  The reference program's two results read at an index.

  Stage by stage the reference forms, for query row `n` and candidate `k`: the squared norms `|x n|²` and `|y k|²`
  (a product and a sum from the zero literal), the inner product `x n · y k` (a contraction against the transposed
  candidates), the score `-((|x n|² - 2 · x n · y k) + |y k|²) - b k`, the logit `T ·` score, the row's largest logit
  (a fold of `max` from `-∞`, joined with `-∞` once more), the exponential of the logit less that peak, the row's sum of
  those exponentials, the quotient of the two, and last the two sums over the candidates weighted by that quotient.
  Each lemma below reads ONE of these quantities at explicit coordinates as the direct form's term of the same name;
  the two theorems at the end are the results.
-/
import proofs.«166965_g22308060135433_cont_8to1_1792_5_alg».proof.Proof.Gen.ReferenceIdeal.Read
import proofs.«166965_g22308060135433_cont_8to1_1792_5_alg».proof.Proof.Rows
import proofs.«166965_g22308060135433_cont_8to1_1792_5_alg».proof.Proof.Consts
import Idealize.ShloMosaic.PureOps.Reduce
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.SoftSelect
open Cert.ReferenceIdeal.Gen Cert.ReferenceIdeal.Read

/-! ## The index maps at explicit coordinates -/

/-- Row-major position `k · 32 + d` of the flattened candidates is candidate `k`, coordinate `d`, under the unit axis. -/
theorem idx_v0 (k : Fin 8192) (d : Fin 32) : idx_main_v0 (ix2 k d) = ix3 0 k d :=
  funext fun a => Fin.ext (by
    match a with
    | ⟨0, _⟩ => rfl
    | ⟨1, _⟩ => show (k.val * 32 + d.val) / 32 % 8192 = k.val; have := k.isLt; have := d.isLt; omega
    | ⟨2, _⟩ => show (k.val * 32 + d.val) % 32 = d.val; have := d.isLt; omega)

theorem idx_v2 (n : Fin 4096) (d : Fin 32) : idx_main_v2 (ix1 n) d = ix2 n d :=
  funext fun a => Fin.ext (by match a with | ⟨0, _⟩ => rfl | ⟨1, _⟩ => rfl)

theorem idx_v5 (k : Fin 8192) (d : Fin 32) : idx_main_v5 (ix1 k) d = ix2 k d :=
  funext fun a => Fin.ext (by match a with | ⟨0, _⟩ => rfl | ⟨1, _⟩ => rfl)

theorem idx_v7 (q : Fin 32) (k : Fin 8192) : idx_main_v7 (ix2 q k) = ix2 k q :=
  funext fun a => Fin.ext (by match a with | ⟨0, _⟩ => rfl | ⟨1, _⟩ => rfl)

theorem lidx_v8 (n : Fin 4096) (k : Fin 8192) (q : Fin 32) : lidx_main_v8 (ix2 n k) q = ix2 n q :=
  funext fun a => Fin.ext (by match a with | ⟨0, _⟩ => rfl | ⟨1, _⟩ => rfl)

theorem ridx_v8 (n : Fin 4096) (k : Fin 8192) (q : Fin 32) : ridx_main_v8 (ix2 n k) q = ix2 q k :=
  funext fun a => Fin.ext (by match a with | ⟨0, _⟩ => rfl | ⟨1, _⟩ => rfl)

/-- The row's squared norm, kept as a column and spread along the candidates, is read at the row. -/
theorem idx_v3_v11 (n : Fin 4096) (k : Fin 8192) : idx_main_v3 (idx_main_v11 (ix2 n k)) = ix1 n :=
  funext fun a => Fin.ext (by match a with | ⟨0, _⟩ => rfl)

/-- The candidate's squared norm, kept as a row and spread along the queries, is read at the candidate. -/
theorem idx_v6_v13 (n : Fin 4096) (k : Fin 8192) : idx_main_v6 (idx_main_v13 (ix2 n k)) = ix1 k :=
  funext fun a => Fin.ext (by match a with | ⟨0, _⟩ => rfl)

theorem idx_v16 (n : Fin 4096) (k : Fin 8192) : idx_main_v16 (ix2 n k) = ix2 0 k :=
  funext fun a => Fin.ext (by match a with | ⟨0, _⟩ => rfl | ⟨1, _⟩ => rfl)

theorem idx_v23_v24 (n : Fin 4096) (k : Fin 8192) : idx_main_v23 (idx_main_v24 (ix2 n k)) = ix1 n :=
  funext fun a => Fin.ext (by match a with | ⟨0, _⟩ => rfl)

theorem idx_v27 (n : Fin 4096) (k : Fin 8192) : idx_main_v27 (ix1 n) k = ix2 n k :=
  funext fun a => Fin.ext (by match a with | ⟨0, _⟩ => rfl | ⟨1, _⟩ => rfl)

theorem idx_v28_v29 (n : Fin 4096) (k : Fin 8192) : idx_main_v28 (idx_main_v29 (ix2 n k)) = ix1 n :=
  funext fun a => Fin.ext (by match a with | ⟨0, _⟩ => rfl)

theorem idx_v32 (n : Fin 4096) (k : Fin 8192) : idx_main_v32 (ix1 n) k = ix2 n k :=
  funext fun a => Fin.ext (by match a with | ⟨0, _⟩ => rfl | ⟨1, _⟩ => rfl)

theorem lidx_v33 (n : Fin 4096) (d : Fin 32) (k : Fin 8192) : lidx_main_v33 (ix2 n d) k = ix2 n k :=
  funext fun a => Fin.ext (by match a with | ⟨0, _⟩ => rfl | ⟨1, _⟩ => rfl)

theorem ridx_v33 (n : Fin 4096) (d : Fin 32) (k : Fin 8192) : ridx_main_v33 (ix2 n d) k = ix2 k d :=
  funext fun a => Fin.ext (by match a with | ⟨0, _⟩ => rfl | ⟨1, _⟩ => rfl)

/-- Row `n` with coordinate `k` inserted on the dropped axis is the index `(n, k)`. -/
theorem lift_row (h : S4096x8192.Reduces [1] S4096) (n : Fin 4096) (k : Fin 8192) : h.lift (ix1 n) k = ix2 n k :=
  funext fun a => Fin.ext (by match a with | ⟨0, _⟩ => rfl | ⟨1, _⟩ => rfl)

/-! ## The named quantities -/

variable (x0 : (⟨S4096x32, .f32⟩ : BufTy).Contents (Elt Ideal)) (x1 : (⟨S1x8192x32, .f32⟩ : BufTy).Contents (Elt Ideal)) (x2 : (⟨S1x8192, .f32⟩ : BufTy).Contents (Elt Ideal))

/-- The flattened candidates: candidate `k`, coordinate `d`. -/
theorem v0_at (k : Fin 8192) (d : Fin 32) : val_main_v0 (F := Ideal) x1 (ix2 k d) = candOf x1 k d := by
  rw [val_main_v0_apply, idx_v0]
  rfl

/-- `|x n|²`: the sum from the zero literal is the sum. -/
theorem sqx_at (n : Fin 4096) : val_main_v2 (F := Ideal) x0 (ix1 n) = Cert.SoftSelect.sq (rowOf x0 n) := by
  rw [val_main_v2_apply, val_main_cst_apply, Ideal.ofBits_def, Ideal.ofBits_zero_f32, zero_add]
  refine Finset.sum_congr rfl fun d _ => ?_
  rw [val_main_v1_apply, idx_v2]
  rfl

/-- `|y k|²`. -/
theorem sqy_at (k : Fin 8192) : val_main_v5 (F := Ideal) x1 (ix1 k) = ∑ d, candOf x1 k d * candOf x1 k d := by
  rw [val_main_v5_apply, val_main_cst_0_apply, Ideal.ofBits_def, Ideal.ofBits_zero_f32, zero_add]
  refine Finset.sum_congr rfl fun d _ => ?_
  rw [val_main_v4_apply, idx_v5, v0_at]
  rfl

/-- `x n · y k`: the contraction runs over the query's coordinates against the transposed candidates. -/
theorem dot_at (n : Fin 4096) (k : Fin 8192) :
    val_main_v8 (F := Ideal) x0 x1 (ix2 n k) = dot (rowOf x0 n) (candOf x1) k := by
  rw [val_main_v8_apply]
  refine Finset.sum_congr rfl fun q _ => ?_
  rw [lidx_v8, ridx_v8, val_main_v7_apply, idx_v7, v0_at]
  rfl

/-- The score of candidate `k` for row `n`. -/
theorem score_at (n : Fin 4096) (k : Fin 8192) :
    val_main_v17 (F := Ideal) x0 x1 x2 (ix2 n k) = scoreR (rowOf x0 n) (candOf x1) (icptOf x2) k := by
  rw [val_main_v17_apply, val_main_v15_apply, val_main_v14_apply, val_main_v12_apply, val_main_v11_apply, val_main_v3_apply,
    val_main_v10_apply, val_main_v9_apply, val_main_cst_1_apply, val_main_v13_apply, val_main_v6_apply, val_main_v16_apply,
    idx_v3_v11, idx_v6_v13, idx_v16, sqx_at, sqy_at, dot_at]
  rfl

/-- The logit: the temperature times the score. -/
theorem logit_at (n : Fin 4096) (k : Fin 8192) :
    val_main_v19 (F := Ideal) x0 x1 x2 (ix2 n k) = logitR (rowOf x0 n) (candOf x1) (icptOf x2) k := by
  rw [val_main_v19_apply, val_main_v18_apply, val_main_cst_2_apply, score_at]
  rfl

/-- The reduction with `maximum` from `-∞` along the candidates is the fold of `max` from `⊥` over the row's logits:
    `max` commutes and associates, so the fold over the indices of row `n` is the fold over the candidates. -/
theorem v20_at (n : Fin 4096) :
    val_main_v20 (F := Ideal) x0 x1 x2 (ix1 n)
      = (Finset.univ : Finset (Fin 8192)).fold max ⊥ (logitR (rowOf x0 n) (candOf x1) (icptOf x2)) := by
  have h : S4096x8192.Reduces [1] S4096 := by decide
  unfold val_main_v20
  rw [Host.reduce_eq_fold_single (FloatOps.maximumf (F := Ideal) (φ := .f32)) (val_main_v19 (F := Ideal) x0 x1 x2)
    (val_main_cst_3 (F := Ideal)) reducesTo_S4096x8192_S4096_d1 h h_S_ (ix1 n),
    val_main_cst_3_apply, Ideal.ofBits_def, negInf_eq]
  have hf : ∀ k : Fin 8192, val_main_v19 (F := Ideal) x0 x1 x2 (h.lift (ix1 n) k)
      = logitR (rowOf x0 n) (candOf x1) (icptOf x2) k :=
    fun k => by rw [lift_row h n k, logit_at]
  exact congrArg (fun f : Fin 8192 → EReal => (Finset.univ : Finset (Fin 8192)).fold max ⊥ f) (funext hf)

/-- The row's peak: `-∞` joined with that fold. -/
theorem peak_at (n : Fin 4096) :
    val_main_v22 (F := Ideal) x0 x1 x2 (ix1 n) = peakR (rowOf x0 n) (candOf x1) (icptOf x2) := by
  rw [val_main_v22_apply, val_main_v21_apply, val_main_cst_4_apply, Ideal.ofBits_def, negInf_eq, v20_at]
  rfl

/-- The exponential of the logit less the row's peak. -/
theorem exp_at (n : Fin 4096) (k : Fin 8192) :
    val_main_v26 (F := Ideal) x0 x1 x2 (ix2 n k) = expR (rowOf x0 n) (candOf x1) (icptOf x2) k := by
  rw [val_main_v26_apply, val_main_v25_apply, val_main_v24_apply, val_main_v23_apply, idx_v23_v24, peak_at, logit_at]
  rfl

/-- The row's sum of exponentials. -/
theorem mass_at (n : Fin 4096) :
    val_main_v27 (F := Ideal) x0 x1 x2 (ix1 n) = massR (rowOf x0 n) (candOf x1) (icptOf x2) := by
  rw [val_main_v27_apply, val_main_cst_5_apply, Ideal.ofBits_def, Ideal.ofBits_zero_f32, zero_add]
  unfold massR
  refine Finset.sum_congr rfl fun k _ => ?_
  rw [idx_v27, exp_at]

/-- The softmax weight. -/
theorem wgt_at (n : Fin 4096) (k : Fin 8192) :
    val_main_v30 (F := Ideal) x0 x1 x2 (ix2 n k) = wgtR (rowOf x0 n) (candOf x1) (icptOf x2) k := by
  rw [val_main_v30_apply, val_main_v29_apply, val_main_v28_apply, idx_v28_v29, mass_at, exp_at]
  rfl

/-! ## The two results -/

/-- The first result at `(n, d)`: the candidates' coordinate `d`, weighted. -/
theorem choice_apply (x0 : (⟨S4096x32, .f32⟩ : BufTy).Contents (Elt Ideal)) (x1 : (⟨S1x8192x32, .f32⟩ : BufTy).Contents (Elt Ideal)) (x2 : (⟨S1x8192, .f32⟩ : BufTy).Contents (Elt Ideal)) (n : Fin 4096) (d : Fin 32) :
    Cert.ReferenceIdeal.Read.val_main_v33 (F := Ideal) x0 x1 x2 (ix2 n d) = choiceR (rowOf x0 n) (candOf x1) (icptOf x2) d := by
  rw [val_main_v33_apply]
  unfold choiceR
  refine Finset.sum_congr rfl fun k _ => ?_
  rw [lidx_v33, ridx_v33, wgt_at, v0_at]

/-- The second result at `n`: the scores, weighted; the sum from the zero literal is the sum. -/
theorem fx_apply (x0 : (⟨S4096x32, .f32⟩ : BufTy).Contents (Elt Ideal)) (x1 : (⟨S1x8192x32, .f32⟩ : BufTy).Contents (Elt Ideal)) (x2 : (⟨S1x8192, .f32⟩ : BufTy).Contents (Elt Ideal)) (n : Fin 4096) :
    Cert.ReferenceIdeal.Read.val_main_v32 (F := Ideal) x0 x1 x2 (ix1 n) = fxR (rowOf x0 n) (candOf x1) (icptOf x2) := by
  rw [val_main_v32_apply, val_main_cst_6_apply, Ideal.ofBits_def, Ideal.ofBits_zero_f32, zero_add]
  unfold fxR
  refine Finset.sum_congr rfl fun k _ => ?_
  rw [idx_v32, val_main_v31_apply, wgt_at, score_at]
  rfl

end Cert.ReferenceIdeal.RefValue

end
-- ==== Proof.Finite.lean ====
/-
  The precondition, read as "every entry of the three inputs is a real number".

  The printed predicate takes, for each input array, the absolute value of every entry, compares it
  (ordered, less-than) with +∞, reduces the comparisons by "and" from true over every axis, and joins
  the three results by "and". If the whole is true then each of the three reductions is true, so every
  single comparison is true: |v i| < +∞ at every index i. In the extended reals |v| = max v (-v), which
  is +∞ at both infinities and a real number at a real number; so |v i| < +∞ leaves only a real v i.
-/
import proofs.«166965_g22308060135433_cont_8to1_1792_5_alg».proof.Pre_finite_inputs
import proofs.«166965_g22308060135433_cont_8to1_1792_5_alg».proof.Proof.Consts
import Idealize.ShloMosaic.Lib.ReduceAll
import Idealize.ShloMosaic.Lib.ValueIdx
import Idealize.ShloMosaic.PureOps.Ideal.Laws
import Mathlib.Data.EReal.Basic

noncomputable section

namespace Cert.Finite

open Idealize.ShloMosaic

/-- The rank-0 shape has a single index. -/
instance : Subsingleton Cert.Pre_finite_inputs.S_.Idx := ⟨fun a b => funext fun d => d.elim0⟩

/-- An extended real whose absolute value max x (-x) is below +∞ is a real number: at either infinity
    the absolute value is +∞ itself. -/
theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- One input array: if the "and" of all the comparisons |v i| < +∞ is true, every v i is real. -/
theorem reals_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf v)
          (broadcastInDim s ![] hb (constant (F := Ideal) Cert.Pre_finite_inputs.S_ .f32 0x7F800000#32)))
        (constantI Cert.Pre_finite_inputs.S_ 1 1#1) hr hu ValueIdx.ix0 = 1#1) (i : s.Idx) :
    ∃ r : ℝ, v i = (r : EReal) := by
  have hi := Host.reduce_andi_all _ _ hr hu _ e i
  change FloatOps.cmpf .olt (FloatOps.hostAbsf (v i)) (FloatOps.ofBits (F := Ideal) .f32 0x7F800000#32)
    = 1#1 at hi
  rw [Ideal.hostAbsf_def, Ideal.absf_def, Ideal.cmpf_def, Ideal.ofBits_def,
    Cert.SoftSelect.posInf_eq] at hi
  exact real_of_abs_lt_top (v i) hi

theorem reals_of_pre [Cert.Pre_finite_inputs.Facts]
    (X : FVec Ideal Cert.Pre_finite_inputs.S4096x32 .f32)
    (Y : FVec Ideal Cert.Pre_finite_inputs.S1x8192x32 .f32)
    (B : FVec Ideal Cert.Pre_finite_inputs.S1x8192 .f32)
    (h : Cert.Pre_finite_inputs.fn (F := Ideal) X Y B = (fun _ => 1#1)) :
    (∀ i, ∃ r : ℝ, X i = (r : EReal)) ∧ (∀ i, ∃ r : ℝ, Y i = (r : EReal))
      ∧ (∀ i, ∃ r : ℝ, B i = (r : EReal)) := by
  have h0 := congrFun h ValueIdx.ix0
  dsimp only [Cert.Pre_finite_inputs.fn] at h0
  change IntOp.andi (IntOp.andi _ _) _ = 1#1 at h0
  obtain ⟨h12, h3⟩ := IntOp.andi_eq_one.1 h0
  obtain ⟨h1, h2⟩ := IntOp.andi_eq_one.1 h12
  exact ⟨reals_of_all X _ _ _ h1, reals_of_all Y _ _ _ h2, reals_of_all B _ _ _ h3⟩

end Cert.Finite

end
-- ==== Proof.lean ====
/-
  A fused softmax-selection kernel against its textbook reference, on the extended reals.

  For each of 4096 query rows x and 8192 candidates y k with intercepts b k, both programs return the
  softmax-weighted selection at temperature 50 by the score s k = -|x - y k|² - b k:
    choice d = Σ_k w k · y k d   and   f = Σ_k w k · s k,   w = softmax (50 · s).
  The reference computes exactly that. The kernel never forms the score: on a block of 256 rows it takes the
  logits t k = 50 · (2 · x·y k - (|y k|² + b k)), which differ from 50 · s k by the row constant 50 · |x|², subtracts the
  row's maximum, exponentiates, and multiplies the weights e once with the candidates extended by the two columns
  c = |y|² + b and 1, which gives Σ e·y, Σ e·c and Σ e together; then choice = (Σ e·y) / Σ e and
  f = (2 · Σ_d (Σ e·y) d · x d - Σ e·c) / Σ e - |x|².

  The two agree because softmax ignores a row constant (so the reference's weights are e / Σ e), because
  Σ_k e k · (x·y k) = Σ_d x d · Σ_k e k · y k d, and because the weights sum to one. Each of these moves a factor across a
  sum or cancels a quotient, which the extended reals allow only away from the infinities: this is where the
  precondition, every input finite, is used. On finite inputs every intermediate value of both programs is a real
  number, and the identities are those of the reals (SoftSelectLaw).

  The parts: SoftSelect states both forms of one row; KernelRow reads a row of the kernel's stored blocks as the
  row-shifted form; KernelArray joins the sixteen blocks of each result into the whole array; RefRead reads the
  reference's stages as the direct form; Finite reads the precondition as "every entry is a real number". The word-level
  kernel needs only that it runs, and the idealization rewrote nothing.
-/
import proofs.«166965_g22308060135433_cont_8to1_1792_5_alg».proof.Defs
import proofs.«166965_g22308060135433_cont_8to1_1792_5_alg».proof.Proof.Gen.Kernel
import proofs.«166965_g22308060135433_cont_8to1_1792_5_alg».proof.Proof.Gen.Kernel.Skeleton
import proofs.«166965_g22308060135433_cont_8to1_1792_5_alg».proof.Proof.Gen.Kernel.Launch
import proofs.«166965_g22308060135433_cont_8to1_1792_5_alg».proof.Proof.Gen.Kernel.Points
import proofs.«166965_g22308060135433_cont_8to1_1792_5_alg».proof.Proof.Gen.Kernel.Frame
import proofs.«166965_g22308060135433_cont_8to1_1792_5_alg».proof.Proof.Gen.KernelIdeal
import proofs.«166965_g22308060135433_cont_8to1_1792_5_alg».proof.Proof.Gen.KernelIdeal.Skeleton
import proofs.«166965_g22308060135433_cont_8to1_1792_5_alg».proof.Proof.Gen.KernelIdeal.Launch
import proofs.«166965_g22308060135433_cont_8to1_1792_5_alg».proof.Proof.Gen.KernelIdeal.Points
import proofs.«166965_g22308060135433_cont_8to1_1792_5_alg».proof.Proof.Gen.KernelIdeal.Frame
import proofs.«166965_g22308060135433_cont_8to1_1792_5_alg».proof.Proof.Gen.ReferenceIdeal
import proofs.«166965_g22308060135433_cont_8to1_1792_5_alg».proof.Proof.Gen.Pre_finite_inputs
import proofs.«166965_g22308060135433_cont_8to1_1792_5_alg».proof.Proof.Gen.KernelIdeal.Value
import proofs.«166965_g22308060135433_cont_8to1_1792_5_alg».proof.Proof.Gen.ReferenceIdeal.Run
import proofs.«166965_g22308060135433_cont_8to1_1792_5_alg».proof.Proof.Gen.ReferenceIdeal.Read
import proofs.«166965_g22308060135433_cont_8to1_1792_5_alg».proof.Proof.SoftSelectLaw
import proofs.«166965_g22308060135433_cont_8to1_1792_5_alg».proof.Proof.KernelArray
import proofs.«166965_g22308060135433_cont_8to1_1792_5_alg».proof.Proof.RefRead
import proofs.«166965_g22308060135433_cont_8to1_1792_5_alg».proof.Proof.Finite
import Idealize.ShloMosaic.Adequacy
import Idealize.ShloMosaic.Init

noncomputable section

namespace Cert.Proof

open Idealize.ShloMosaic Idealize.SL.Sem Idealize.ShloMosaic.ValueIdx Cert.SoftSelect

/-! ## The three programs run -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-! ## The two results are equal -/

/-- On finite inputs the kernel's arrays, row by row the row-shifted form, are the reference's, row by row the direct form. -/
theorem algebraic : Cert.algebraic_KernelIdeal_ReferenceIdeal := by
  intro m ρ m' ρ' hpre hagree
  refine ⟨_, _, Cert.KernelIdeal.ArrValue.run m ρ, ?_⟩
  refine (θ_run Cert.ReferenceIdeal.defs _ _).mono (fun _ h c => ?_) (Cert.ReferenceIdeal.Value.run (F := Ideal) m' ρ')
  obtain ⟨hX, hY, hB⟩ := Cert.Finite.reals_of_pre _ _ _ (hpre c)
  haveI : Nonempty (Fin 8192) := ⟨0⟩
  -- the kernel's candidates are the reference's: the flattened array at (k, d) is the argument at (0, k, d)
  have hcand : (fun (k : Fin 8192) (d : Fin 32) => Cert.KernelIdeal.Gen.V m c Cert.KernelIdeal.main_v0 (ix2 k d))
      = candOf (m ((c.tc : Thread Cert.KernelIdeal.nD Cert.KernelIdeal.τ).loc Cert.KernelIdeal.main_arg1)) :=
    funext fun k => funext fun d => Cert.KernelIdeal.ArrValue.V_main_v0_apply m c k d
  refine ⟨(h c).1.trans ?_, (h c).2.1.trans ?_, (h c).2.2⟩
  · rw [Cert.ReferenceIdeal.Read.val_main_v33_eq, (hagree c).1, (hagree c).2.1, (hagree c).2.2]
    funext i
    obtain ⟨n, d, rfl⟩ : ∃ (n : Fin 4096) (d : Fin 32), i = ix2 n d := ⟨i 0, i 1, eq_ix2 i⟩
    rw [Cert.ReferenceIdeal.RefValue.choice_apply]
    show _ = choiceK (rowOf _ n) (fun (k : Fin 8192) (d : Fin 32) => Cert.KernelIdeal.Gen.V m c Cert.KernelIdeal.main_v0 (ix2 k d)) (icptOf _) d
    rw [hcand]
    exact (choice_eq_of_finite _ _ _ (fun d => hX _) (fun k d => hY _) (fun k => hB _) d).symm
  · rw [Cert.ReferenceIdeal.Read.val_main_v32_eq, (hagree c).1, (hagree c).2.1, (hagree c).2.2]
    funext i
    obtain ⟨n, rfl⟩ : ∃ n : Fin 4096, i = ix1 n := ⟨i 0, eq_ix1 i⟩
    rw [Cert.ReferenceIdeal.RefValue.fx_apply]
    show _ = fxK (rowOf _ n) (fun (k : Fin 8192) (d : Fin 32) => Cert.KernelIdeal.Gen.V m c Cert.KernelIdeal.main_v0 (ix2 k d)) (icptOf _)
    rw [hcand]
    exact (fx_eq_of_finite _ _ _ (fun d => hX _) (fun k d => hY _) (fun k => hB _)).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves, Cert.Proof.algebraic⟩

end
